-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg0 : IVec S50000 32) (main_v33 : IVec S_ 1) : IVec S_ 1 :=
  let main_c_12 : IVec S_ 32 := constantI S_ 32 4294917296#32
  let main_v34 : IVec S50000 32 := broadcastInDim S50000 ![] bcast_S_S50000 main_c_12
  let main_v35 : IVec S50000 1 := cmpi .sge main_arg0 main_v34
  let main_c_13 : IVec S_ 32 := constantI S_ 32 50000#32
  let main_v36 : IVec S50000 32 := broadcastInDim S50000 ![] bcast_S_S50000 main_c_13
  let main_v37 : IVec S50000 1 := cmpi .slt main_arg0 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg0 : IVec S50000 32) (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg0 main_v33

def fn {F : FTy → Type} [FloatOps F] (main_arg0 : IVec S50000 32) (main_arg1 : IVec S2x800000 32) (main_arg2 : FVec F S50000x128 .f32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S50000x128 .f32 := Host.absf main_arg2
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg6 main_arg7 main_arg8 main_v13 main_v16
-- ==== Kernel.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000x1 : Shape := ⟨2, ![50000, 1]⟩
abbrev S1 : Shape := ⟨1, ![1]⟩
abbrev S1x1 : Shape := ⟨2, ![1, 1]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S1x16 : Shape := ⟨2, ![1, 16]⟩
abbrev S50000x16 : Shape := ⟨2, ![50000, 16]⟩
abbrev S5000x16 : Shape := ⟨2, ![5000, 16]⟩

abbrev nBuf : Space → Nat
  | .hbm => 112
  | .vmem => 26
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S1, .i32⟩
  | .hbm, ⟨18, _⟩ => ⟨S_, .i32⟩
  | .hbm, ⟨19, _⟩ => ⟨S50000x1, .i32⟩
  | .hbm, ⟨20, _⟩ => ⟨S50000x1, .i1⟩
  | .hbm, ⟨21, _⟩ => ⟨S1x1, .i32⟩
  | .hbm, ⟨22, _⟩ => ⟨S50000x1, .i32⟩
  | .hbm, ⟨23, _⟩ => ⟨S50000x1, .i1⟩
  | .hbm, ⟨24, _⟩ => ⟨S50000x1, .i1⟩
  | .hbm, ⟨25, _⟩ => ⟨S_, .i1⟩
  | .hbm, ⟨26, _⟩ => ⟨S50000, .i1⟩
  | .hbm, ⟨27, _⟩ => ⟨S50000x128, .f32⟩
  | .hbm, ⟨28, _⟩ => ⟨S50000x128, .i1⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000, .i32⟩
  | .hbm, ⟨33, _⟩ => ⟨S1x800000, .i32⟩
  | .hbm, ⟨34, _⟩ => ⟨S800000, .i32⟩
  | .hbm, ⟨35, _⟩ => ⟨S850000, .i32⟩
  | .hbm, ⟨36, _⟩ => ⟨S1x800000, .i32⟩
  | .hbm, ⟨37, _⟩ => ⟨S800000, .i32⟩
  | .hbm, ⟨38, _⟩ => ⟨S850000, .i32⟩
  | .hbm, ⟨39, _⟩ => ⟨S_, .f32⟩
  | .hbm, ⟨40, _⟩ => ⟨S850000, .f32⟩
  | .hbm, ⟨41, _⟩ => ⟨S_, .f32⟩
  | .hbm, ⟨42, _⟩ => ⟨S50000, .f32⟩
  | .hbm, ⟨43, _⟩ => ⟨S850000x1, .i32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .i1⟩
  | .hbm, ⟨48, _⟩ => ⟨S50000, .f32⟩
  | .hbm, ⟨49, _⟩ => ⟨S_, .f32⟩
  | .hbm, ⟨50, _⟩ => ⟨S_, .f32⟩
  | .hbm, ⟨51, _⟩ => ⟨S50000, .f32⟩
  | .hbm, ⟨52, _⟩ => ⟨S50000, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000, .f32⟩
  | .hbm, ⟨62, _⟩ => ⟨S_, .i32⟩
  | .hbm, ⟨63, _⟩ => ⟨S850000, .i32⟩
  | .hbm, ⟨64, _⟩ => ⟨S850000, .i1⟩
  | .hbm, ⟨65, _⟩ => ⟨S_, .i32⟩
  | .hbm, ⟨66, _⟩ => ⟨S850000, .i32⟩
  | .hbm, ⟨67, _⟩ => ⟨S850000, .i32⟩
  | .hbm, ⟨68, _⟩ => ⟨S850000, .i32⟩
  | .hbm, ⟨69, _⟩ => ⟨S850000x1, .i32⟩
  | .hbm, ⟨70, _⟩ => ⟨S850000, .f32⟩
  | .hbm, ⟨71, _⟩ => ⟨S850000, .f32⟩
  | .hbm, ⟨72, _⟩ => ⟨S50000x128, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x128, .f32⟩
  | .hbm, ⟨82, _⟩ => ⟨S850000x1, .f32⟩
  | .hbm, ⟨83, _⟩ => ⟨S850000x128, .f32⟩
  | .hbm, ⟨84, _⟩ => ⟨S850000x128, .f32⟩
  | .hbm, ⟨85, _⟩ => ⟨S_, .f32⟩
  | .hbm, ⟨86, _⟩ => ⟨S50000x128, .f32⟩
  | .hbm, ⟨87, _⟩ => ⟨S850000x1, .i32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .i32⟩
  | .hbm, ⟨93, _⟩ => ⟨S850000, .i32⟩
  | .hbm, ⟨94, _⟩ => ⟨S850000, .i1⟩
  | .hbm, ⟨95, _⟩ => ⟨S_, .i32⟩
  | .hbm, ⟨96, _⟩ => ⟨S850000, .i32⟩
  | .hbm, ⟨97, _⟩ => ⟨S850000, .i32⟩
  | .hbm, ⟨98, _⟩ => ⟨S850000, .i32⟩
  | .hbm, ⟨99, _⟩ => ⟨S850000x1, .i32⟩
  | .hbm, ⟨100, _⟩ => ⟨S850000x128, .f32⟩
  | .hbm, ⟨101, _⟩ => ⟨S850000x1, .f32⟩
  | .hbm, ⟨102, _⟩ => ⟨S850000x128, .f32⟩
  | .hbm, ⟨103, _⟩ => ⟨S850000x128, .f32⟩
  | .hbm, ⟨104, _⟩ => ⟨S_, .f32⟩
  | .hbm, ⟨105, _⟩ => ⟨S50000x128, .f32⟩
  | .hbm, ⟨106, _⟩ => ⟨S850000x1, .i32⟩
  | .hbm, ⟨107, _⟩ => ⟨S50000x128, .f32⟩
  | .hbm, ⟨108, _⟩ => ⟨S1x128, .f32⟩
  | .hbm, ⟨109, _⟩ => ⟨S50000x128, .f32⟩
  | .hbm, ⟨110, _⟩ => ⟨S1x16, .f32⟩
  | .hbm, ⟨111, _⟩ => ⟨S50000x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x16, .f32⟩
  | .local _ .vmem, ⟨23, _⟩ => ⟨S1x16, .f32⟩
  | .local _ .vmem, ⟨24, _⟩ => ⟨S5000x16, .f32⟩
  | .local _ .vmem, ⟨25, _⟩ => ⟨S5000x16, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_2 : Ref sig .tc := ⟨.hbm, 49, rfl⟩
abbrev main_call1_v0 : Ref sig .tc := ⟨.hbm, 50, rfl⟩
abbrev main_call1_v1 : Ref sig .tc := ⟨.hbm, 51, rfl⟩
abbrev main_v15 : Ref sig .tc := ⟨.hbm, 52, rfl⟩
abbrev main_c : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_c_4 : Ref sig .tc := ⟨.hbm, 62, rfl⟩
abbrev main_v23 : Ref sig .tc := ⟨.hbm, 63, rfl⟩
abbrev main_v24 : Ref sig .tc := ⟨.hbm, 64, rfl⟩
abbrev main_c_5 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_c_6 : Ref sig .tc := ⟨.hbm, 73, rfl⟩
abbrev main_v32 : Ref sig .tc := ⟨.hbm, 74, rfl⟩
abbrev main_v33 : Ref sig .tc := ⟨.hbm, 75, rfl⟩
abbrev main_c_7 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_cst_8 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_c_9 : Ref sig .tc := ⟨.hbm, 92, rfl⟩
abbrev main_v48 : Ref sig .tc := ⟨.hbm, 93, rfl⟩
abbrev main_v49 : Ref sig .tc := ⟨.hbm, 94, rfl⟩
abbrev main_c_10 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg3_0 : Ref sig .tc := ⟨.vmem, 24, rfl⟩
abbrev cc4_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem3_0 : DmaSem sig := 24
abbrev cc4_sem3_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x16 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x16 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  reducesTo_S50000x1_S50000_d1 : S50000x1.ReducesTo [1] S50000
  h_S_ : 0 < S_.numel
  bcast_S50000_S50000x128_0 : S50000.BroadcastsInDim S50000x128 (![0] : Fin 1 → Fin S50000x128.rank)
  bcast_S_S50000x128 : S_.BroadcastsInDim S50000x128 (![] : Fin 0 → Fin S50000x128.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  gather_S50000x128_S50000x1_S50000x128_1_0_n_n_0_1_1128_wf : GatherDims.WF S50000x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x16_S5000x16_1_0_0_1_n_n_wf : DotDims.WF S5000x128 S128x16 S5000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x16.size a ≤ S128x16.size a
  hwx4_1 : ∀ i : grid4.Coords, EltTy.bits .f32 = 32 ∨ (Rect.block (s := S128x16) S128x16.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x16.size a ≤ S1x16.size a
  hwx4_2 : ∀ i : grid4.Coords, EltTy.bits .f32 = 32 ∨ (Rect.block (s := S1x16) S1x16.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x16.size a ≤ S50000x16.size a
  hwx4_3 : ∀ i : grid4.Coords, EltTy.bits .f32 = 32 ∨ (Rect.block (s := S50000x16) S5000x16.size (cc4_transform_3 i) (hinb4_3 i)).WholeWords (EltTy.packing .f32)

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x16.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S1x16.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v64) S5000x16.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000 : Shape := ⟨1, ![50000]⟩
abbrev S2x800000 : Shape := ⟨2, ![2, 800000]⟩
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S50000x1 : Shape := ⟨2, ![50000, 1]⟩
abbrev S1x800000 : Shape := ⟨2, ![1, 800000]⟩
abbrev S800000 : Shape := ⟨1, ![800000]⟩
abbrev S850000 : Shape := ⟨1, ![850000]⟩
abbrev S850000x1 : Shape := ⟨2, ![850000, 1]⟩
abbrev S850000x128 : Shape := ⟨2, ![850000, 128]⟩
abbrev S1x128 : Shape := ⟨2, ![1, 128]⟩
abbrev S50000x16 : Shape := ⟨2, ![50000, 16]⟩
abbrev S1x16 : Shape := ⟨2, ![1, 16]⟩

abbrev nBuf : Space → Nat
  | .hbm => 108
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .i32⟩
  | .hbm, ⟨10, _⟩ => ⟨S50000, .i32⟩
  | .hbm, ⟨11, _⟩ => ⟨S50000, .i1⟩
  | .hbm, ⟨12, _⟩ => ⟨S_, .i32⟩
  | .hbm, ⟨13, _⟩ => ⟨S50000, .i32⟩
  | .hbm, ⟨14, _⟩ => ⟨S50000, .i32⟩
  | .hbm, ⟨15, _⟩ => ⟨S50000, .i32⟩
  | .hbm, ⟨16, _⟩ => ⟨S50000x1, .i32⟩
  | .hbm, ⟨17, _⟩ => ⟨S50000x128, .f32⟩
  | .hbm, ⟨18, _⟩ => ⟨S50000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S1x800000, .i32⟩
  | .hbm, ⟨23, _⟩ => ⟨S800000, .i32⟩
  | .hbm, ⟨24, _⟩ => ⟨S850000, .i32⟩
  | .hbm, ⟨25, _⟩ => ⟨S_, .f32⟩
  | .hbm, ⟨26, _⟩ => ⟨S850000, .f32⟩
  | .hbm, ⟨27, _⟩ => ⟨S_, .f32⟩
  | .hbm, ⟨28, _⟩ => ⟨S50000, .f32⟩
  | .hbm, ⟨29, _⟩ => ⟨S850000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S50000, .f32⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S_, .i32⟩
  | .hbm, ⟨40, _⟩ => ⟨S850000, .i32⟩
  | .hbm, ⟨41, _⟩ => ⟨S850000, .i1⟩
  | .hbm, ⟨42, _⟩ => ⟨S_, .i32⟩
  | .hbm, ⟨43, _⟩ => ⟨S850000, .i32⟩
  | .hbm, ⟨44, _⟩ => ⟨S850000, .i32⟩
  | .hbm, ⟨45, _⟩ => ⟨S850000, .i32⟩
  | .hbm, ⟨46, _⟩ => ⟨S850000x1, .i32⟩
  | .hbm, ⟨47, _⟩ => ⟨S850000, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000, .f32⟩
  | .hbm, ⟨57, _⟩ => ⟨S850000, .f32⟩
  | .hbm, ⟨58, _⟩ => ⟨S50000x128, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000x128, .f32⟩
  | .hbm, ⟨68, _⟩ => ⟨S850000x1, .f32⟩
  | .hbm, ⟨69, _⟩ => ⟨S850000x128, .f32⟩
  | .hbm, ⟨70, _⟩ => ⟨S850000x128, .f32⟩
  | .hbm, ⟨71, _⟩ => ⟨S_, .f32⟩
  | .hbm, ⟨72, _⟩ => ⟨S50000x128, .f32⟩
  | .hbm, ⟨73, _⟩ => ⟨S850000x1, .i32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S_, .i32⟩
  | .hbm, ⟨83, _⟩ => ⟨S850000, .i32⟩
  | .hbm, ⟨84, _⟩ => ⟨S850000, .i1⟩
  | .hbm, ⟨85, _⟩ => ⟨S_, .i32⟩
  | .hbm, ⟨86, _⟩ => ⟨S850000, .i32⟩
  | .hbm, ⟨87, _⟩ => ⟨S850000, .i32⟩
  | .hbm, ⟨88, _⟩ => ⟨S850000, .i32⟩
  | .hbm, ⟨89, _⟩ => ⟨S850000x1, .i32⟩
  | .hbm, ⟨90, _⟩ => ⟨S850000x128, .f32⟩
  | .hbm, ⟨91, _⟩ => ⟨S850000x1, .f32⟩
  | .hbm, ⟨92, _⟩ => ⟨S850000x128, .f32⟩
  | .hbm, ⟨93, _⟩ => ⟨S850000x128, .f32⟩
  | .hbm, ⟨94, _⟩ => ⟨S_, .f32⟩
  | .hbm, ⟨95, _⟩ => ⟨S50000x128, .f32⟩
  | .hbm, ⟨96, _⟩ => ⟨S850000x1, .i32⟩
  | .hbm, ⟨97, _⟩ => ⟨S50000x128, .f32⟩
  | .hbm, ⟨98, _⟩ => ⟨S1x128, .f32⟩
  | .hbm, ⟨99, _⟩ => ⟨S50000x128, .f32⟩
  | .hbm, ⟨100, _⟩ => ⟨S50000x128, .f32⟩
  | .hbm, ⟨101, _⟩ => ⟨S_, .f32⟩
  | .hbm, ⟨102, _⟩ => ⟨S50000x128, .f32⟩
  | .hbm, ⟨103, _⟩ => ⟨S50000x128, .f32⟩
  | .hbm, ⟨104, _⟩ => ⟨S50000x16, .f32⟩
  | .hbm, ⟨105, _⟩ => ⟨S1x16, .f32⟩
  | .hbm, ⟨106, _⟩ => ⟨S50000x16, .f32⟩
  | .hbm, ⟨107, _⟩ => ⟨S50000x16, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call1_cst : Ref sig .tc := ⟨.hbm, 78, rfl⟩
abbrev main_call1_v0 : Ref sig .tc := ⟨.hbm, 79, rfl⟩
abbrev main_v54 : Ref sig .tc := ⟨.hbm, 80, rfl⟩
abbrev main_v55 : Ref sig .tc := ⟨.hbm, 81, rfl⟩
abbrev main_c_11 : Ref sig .tc := ⟨.hbm, 82, rfl⟩
abbrev main_v56 : Ref sig .tc := ⟨.hbm, 83, rfl⟩
abbrev main_v57 : Ref sig .tc := ⟨.hbm, 84, rfl⟩
abbrev main_c_12 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_call2_cst : Ref sig .tc := ⟨.hbm, 101, rfl⟩
abbrev main_call2_v0 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]

class Facts₀ : Prop where
  bcast_S_S50000 : S_.BroadcastsInDim S50000 (![] : Fin 0 → Fin S50000.rank)
  bcast_S50000_S50000x1_0 : S50000.BroadcastsInDim S50000x1 (![0] : Fin 1 → Fin S50000x1.rank)
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S16_S1x16_1 : S16.BroadcastsInDim S1x16 (![1] : Fin 1 → Fin S1x16.rank)
  bcast_S1x16_S50000x16_0_1 : S1x16.BroadcastsInDim S50000x16 (![0, 1] : Fin 2 → Fin S50000x16.rank)
  gather_S50000x128_S50000x1_S50000x128_1_0_n_n_0_1_1128_wf : GatherDims.WF S50000x128 S50000x1 S50000x128 [1] [0] [] [0] [] 1 ![1, 128]
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x16_S50000x16_1_0_0_1_n_n_wf : DotDims.WF S50000x128 S128x16 S50000x16 [1] [0] [0] [1] [] []

variable [Facts₀]

def gather_S50000x128_S50000x1_S50000x128_1_0_n_n_0_1_1128 : GatherDims S50000x128 S50000x1 S50000x128 where
  offsetDims := [1]
  collapsedSliceDims := [0]
  operandBatchingDims := []
  startIndicesBatchingDims := []
  startIndexMap := [0]
  indexVectorDim := 1
  sliceSizes := ![1, 128]
  wf := gather_S50000x128_S50000x1_S50000x128_1_0_n_n_0_1_1128_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x16_S50000x16_1_0_0_1_n_n : DotDims S50000x128 S128x16 S50000x16 where
  lhsContracting := [1]
  rhsContracting := [0]
  lhsNonContracting := [0]
  rhsNonContracting := [1]
  lhsBatch := []
  rhsBatch := []
  wf := dot_S50000x128_S128x16_S50000x16_1_0_0_1_n_n_wf

class Facts : Prop extends Facts₀ where

variable [Facts]
-- ==== Proof.Take.lean ====
/-
  The embedding lookup under the index range.

  The kernel looks a row of the table up with a guard: it first wraps a negative index w to w + 50000, then tests
  0 <= idx <= 49999, and where the test fails it puts a not-a-number row in place of the gathered one. The reference
  wraps the same way and gathers with no test. Under the precondition every index lies in [-50000, 50000) as a signed
  word, so the wrapped index lies in [0, 49999]: the test holds at every row, the guard's mask is all ones, and the
  guarded lookup is the plain gather at the wrapped indices. That is the one place the claim uses the range conjunct.
  The arithmetic is on 32-bit words: for w in [-50000, 0) the sum w + 50000 does not wrap around.
-/
import proofs.«411217_j90606630076993_1_alg».proof.Defs
import proofs.«411217_j90606630076993_1_alg».proof.Proof.Gen.KernelIdeal.Frame
import proofs.«411217_j90606630076993_1_alg».proof.Proof.Gen.Pre_finite_inputs
import Idealize.ShloMosaic.Lib.ReduceAll
import Idealize.ShloMosaic.Lib.Affine
import Idealize.ShloMosaic.Lib.ValueIdx

set_option maxRecDepth 16384

noncomputable section

namespace Cert.KernelIdeal.Take

open Idealize.ShloMosaic Idealize.ShloMosaic.TcCoe Idealize.SL.Sem Idealize.ShloMosaic.ValueIdx
open Cert.KernelIdeal Cert.KernelIdeal.Gen

/-! ## Words -/

theorem ofBool_one (b : Bool) : BitVec.ofBool b = 1#1 ↔ b = true := by cases b <;> decide

/-- A signed word in [-50000, 50000), wrapped (w + 50000 when negative), lies in [0, 49999]. -/
theorem wrap_in_range (w : BitVec 32) (h0 : IntOp.cmpi .sge w 4294917296#32 = 1#1) (h1 : IntOp.cmpi .slt w 50000#32 = 1#1) :
    IntOp.cmpi .sge (Scalar.select (IntOp.cmpi .slt w 0#32) (IntOp.addi w 50000#32) w) 0#32 = 1#1
    ∧ IntOp.cmpi .sle (Scalar.select (IntOp.cmpi .slt w 0#32) (IntOp.addi w 50000#32) w) 49999#32 = 1#1 := by
  unfold IntOp.cmpi at h0 h1 ⊢
  unfold Scalar.select IntOp.addi
  simp only [ofBool_one] at h0 h1 ⊢
  have hw := w.isLt
  by_cases hneg : w.slt 0#32 = true
  · have hc : BitVec.ofBool (w.slt 0#32) = 1 := by rw [hneg]; rfl
    rw [if_pos hc]
    simp only [BitVec.slt, BitVec.sle, decide_eq_true_eq, BitVec.toInt, BitVec.toNat_add, BitVec.toNat_ofNat] at h0 h1 hneg ⊢
    omega
  · have hf : w.slt 0#32 = false := by simpa using hneg
    have hc : ¬ BitVec.ofBool (w.slt 0#32) = 1 := by rw [hf]; decide
    rw [if_neg hc]
    simp only [BitVec.slt, BitVec.sle, decide_eq_true_eq, BitVec.toInt, BitVec.toNat_ofNat] at h0 h1 hneg ⊢
    omega

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1) (1#1) = 1#1 from by decide]
    exact foldl_andi_ones f hf l

/-! ## The guard's mask -/

/-- The wrapped indices, as the column the gather reads. -/
def wrapped (x : IVec S50000 32) : IVec S50000x1 32 :=
  broadcastInDim S50000x1 ![0] bcast_S50000_S50000x1_0
    (select (cmpi .slt x (broadcastInDim S50000 ![] bcast_S_S50000 (constantI S_ 32 0#32)))
      (addi x (broadcastInDim S50000 ![] bcast_S_S50000 (constantI S_ 32 50000#32))) x)

/-- The guard's mask, as the kernel's program computes it from the wrapped indices. -/
def mask (x : IVec S50000 32) : IVec S50000x128 1 :=
  broadcastInDim S50000x128 ![0] bcast_S50000_S50000x128_0
    (Host.reduce IntOp.andi
      (andi (cmpi .sge (wrapped x) (broadcastInDim S50000x1 ![] bcast_S_S50000x1 (constantI S_ 32 0#32)))
        (cmpi .sle (wrapped x) (broadcastInDim S50000x1 ![0, 1] bcast_S1x1_S50000x1_0_1
          (broadcastInDim S1x1 ![1] bcast_S1_S1x1_1 (constantI S1 32 49999#32)))))
      (constantI S_ 1 1#1) reducesTo_S50000x1_S50000_d1 h_S_)

/-- With every index in [-50000, 50000) the mask is all ones. -/
theorem mask_ones (x : IVec S50000 32)
    (hx : ∀ k, IntOp.cmpi .sge (x k) 4294917296#32 = 1#1 ∧ IntOp.cmpi .slt (x k) 50000#32 = 1#1) :
    mask x = fun _ => 1#1 := by
  have key : ∀ k : S50000.Idx,
      IntOp.andi (IntOp.cmpi .sge (Scalar.select (IntOp.cmpi .slt (x k) 0#32) (IntOp.addi (x k) 50000#32) (x k)) 0#32)
        (IntOp.cmpi .sle (Scalar.select (IntOp.cmpi .slt (x k) 0#32) (IntOp.addi (x k) 50000#32) (x k)) 49999#32) = 1#1 := fun k => by
    obtain ⟨a, b⟩ := wrap_in_range (x k) (hx k).1 (hx k).2
    rw [a, b]; decide
  funext i
  unfold mask
  show Host.reduce IntOp.andi _ (constantI S_ 1 1#1) reducesTo_S50000x1_S50000_d1 h_S_ _ = 1#1
  rw [Host.reduce_eq_foldl]
  exact foldl_andi_ones _ (fun n => key _) _

/-- The guarded lookup with an all-ones mask is the plain gather. -/
theorem select_ones {α : Type} {s : Shape} (c : IVec s 1) (hc : c = fun _ => 1#1) (a b : s.Idx → α) : select c a b = a := by
  subst hc; funext i; rfl

/-! ## The precondition, decoded -/

instance : Subsingleton Cert.Pre_finite_inputs.S_.Idx := ⟨fun a b => funext fun d => d.elim0⟩

/-- The last conjunct of the precondition, at one index: the index word is in [-50000, 50000) signed. -/
theorem range_of_part2 (x : IVec Cert.Pre_finite_inputs.S50000 32) (v : IVec Cert.Pre_finite_inputs.S_ 1)
    (e : Cert.Pre_finite_inputs.fn_part2 (F := Ideal) x v ix0 = 1#1) (k : Cert.Pre_finite_inputs.S50000.Idx) :
    IntOp.cmpi .sge (x k) 4294917296#32 = 1#1 ∧ IntOp.cmpi .slt (x k) 50000#32 = 1#1 := by
  unfold Cert.Pre_finite_inputs.fn_part2 at e
  dsimp only at e
  have e2 := (IntOp.andi_eq_one.1 e).2
  have e3 := Host.reduce_andi_all _ _ _ _ ix0 e2 k
  exact IntOp.andi_eq_one.1 e3

theorem range_of_pre (m : (ℓ : Loc nD τ sig) → Buf (Elt Ideal) ℓ) (h : Cert.Pre_KernelIdeal m) (c : Dev nD) (k : S50000.Idx) :
    IntOp.cmpi .sge (m ((c : Thread nD τ).loc main_arg0) k) 4294917296#32 = 1#1
    ∧ IntOp.cmpi .slt (m ((c : Thread nD τ).loc main_arg0) k) 50000#32 = 1#1 := by
  have e := congrFun (h c) ix0
  unfold Cert.Pre_finite_inputs.fn Cert.Pre_finite_inputs.fn_part1 at e
  dsimp only at e
  exact range_of_part2 _ _ e k

end Cert.KernelIdeal.Take

end
-- ==== Proof.HostA.lean ====
/-
  The host operations before the first product, read off the frame's boundary contents.

  Before its first kernel launch the program computes, on the host, the looked-up embedding rows (with the guard on
  the index range), the edge lists with the self loops appended (sources and destinations: the two rows of the edge
  array, each followed by 0, 1, ..., 49999), the degree of every node as a scatter of ones over the destinations, its
  inverse square root where the degree is positive, and the weight of every edge as the product of that quantity at
  its two ends. The reference computes the same edge lists and edge weights by the same operations; here each of these
  buffers, as the kernel's program holds it when the first launch is entered, is shown to be the reference's
  corresponding stage of the same arguments. The statements hold for any reading of the floats: nothing is computed.
-/
import proofs.«411217_j90606630076993_1_alg».proof.Proof.Gen.KernelIdeal.Frame
import proofs.«411217_j90606630076993_1_alg».proof.Proof.RefRead
import proofs.«411217_j90606630076993_1_alg».proof.Proof.Take
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

/-- A stretch of host operations leaves a buffer it does not write as it found it. -/
macro "not_written" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg) (c : Dev nD)

/-! ## The edge lists -/

set_option maxHeartbeats 4000000 in
/-- The sources with the self loops appended. -/
theorem src_eq : W4 m ρ c (Proc.devRef .tc main_v4)
    = Cert.ReferenceIdeal.ReadP.val_main_v10 (F := F) (m ((c : Thread nD τ).loc main_arg1)) := by
  show StableHlo.after hostOps0_3 (W3 m ρ c) (Proc.devRef .tc main_v4) = _
  after_results
  rfl

set_option maxHeartbeats 4000000 in
/-- The destinations with the self loops appended. -/
theorem dst_eq : W4 m ρ c (Proc.devRef .tc main_v7)
    = Cert.ReferenceIdeal.ReadP.val_main_v13 (F := F) (m ((c : Thread nD τ).loc main_arg1)) := by
  show StableHlo.after hostOps0_3 (W3 m ρ c) (Proc.devRef .tc main_v7) = _
  after_results
  rfl

/-- The same two buffers one boundary earlier: the last stretch before the launch does not write them. -/
theorem src_eq3 : W3 m ρ c (Proc.devRef .tc main_v4)
    = Cert.ReferenceIdeal.ReadP.val_main_v10 (F := F) (m ((c : Thread nD τ).loc main_arg1)) :=
  (show StableHlo.after hostOps0_3 (W3 m ρ c) (Proc.devRef .tc main_v4) = W3 m ρ c (Proc.devRef .tc main_v4) by
    not_written hostOps0_3).symm.trans (src_eq m ρ c)
theorem dst_eq3 : W3 m ρ c (Proc.devRef .tc main_v7)
    = Cert.ReferenceIdeal.ReadP.val_main_v13 (F := F) (m ((c : Thread nD τ).loc main_arg1)) :=
  (show StableHlo.after hostOps0_3 (W3 m ρ c) (Proc.devRef .tc main_v7) = W3 m ρ c (Proc.devRef .tc main_v7) by
    not_written hostOps0_3).symm.trans (dst_eq m ρ c)

/-! ## The degrees and their inverse square roots -/

set_option maxHeartbeats 4000000 in
/-- The degree of every node: ones scattered over the destinations. -/
theorem deg_eq : W2 m ρ c (Proc.devRef .tc main_v11)
    = Cert.ReferenceIdeal.ReadP.val_main_v17 (F := F) (m ((c : Thread nD τ).loc main_arg1)) := by
  show StableHlo.after hostOps0_1 (W1 m ρ c) (Proc.devRef .tc main_v11) = _
  after_results
  rfl

set_option maxHeartbeats 4000000 in
/-- The inverse square root of the degree where it is positive, zero elsewhere. -/
theorem dinv_eq : W3 m ρ c (Proc.devRef .tc main_v15)
    = Cert.ReferenceIdeal.ReadP.val_main_v21 (F := F) (m ((c : Thread nD τ).loc main_arg1)) := by
  show StableHlo.after hostOps0_2 (W2 m ρ c) (Proc.devRef .tc main_v15) = _
  after_results
  rfl

set_option maxHeartbeats 4000000 in
/-- The weight of every edge: the product of that quantity at its source and at its destination. -/
theorem norm_eq : W4 m ρ c (Proc.devRef .tc main_v30)
    = Cert.ReferenceIdeal.ReadP.val_main_v36 (F := F) (m ((c : Thread nD τ).loc main_arg1)) := by
  show StableHlo.after hostOps0_3 (W3 m ρ c) (Proc.devRef .tc main_v30) = _
  generalize hW : W3 m ρ c = Wv
  after_results
  subst hW
  rw [dinv_eq, src_eq3, dst_eq3]
  rfl

/-! ## The first product's operands -/

/-- The first layer's weights are as launched, at the first launch's entry. -/
theorem arg3_at4 : W4 m ρ c (Proc.devRef .tc main_arg3) = m ((c : Thread nD τ).loc main_arg3) :=
  calc W4 m ρ c (Proc.devRef .tc main_arg3)
    _ = W3 m ρ c (Proc.devRef .tc main_arg3) := by not_written hostOps0_3
    _ = W2 m ρ c (Proc.devRef .tc main_arg3) := by not_written hostOps0_2
    _ = W1 m ρ c (Proc.devRef .tc main_arg3) := by not_written hostOps0_1
    _ = W0 m ρ c (Proc.devRef .tc main_arg3) := by not_written hostOps0
    _ = m ((c : Thread nD τ).loc main_arg3) := rfl

set_option maxHeartbeats 4000000 in
/-- The looked-up rows as the program computes them: the gather at the wrapped indices where the guard's mask is set,
    a not-a-number row elsewhere. -/
theorem take_raw : W4 m ρ c (Proc.devRef .tc main_v0)
    = select (Take.mask (m ((c : Thread nD τ).loc main_arg0)))
        (Host.gather gather_S50000x128_S50000x1_S50000x128_1_0_n_n_0_1_1128 (m ((c : Thread nD τ).loc main_arg2))
          (Take.wrapped (m ((c : Thread nD τ).loc main_arg0))))
        (broadcastInDim S50000x128 ![] bcast_S_S50000x128 (constant S_ .f32 0x7FC00000#32)) :=
  calc W4 m ρ c (Proc.devRef .tc main_v0)
    _ = W3 m ρ c (Proc.devRef .tc main_v0) := by not_written hostOps0_3
    _ = W2 m ρ c (Proc.devRef .tc main_v0) := by not_written hostOps0_2
    _ = W1 m ρ c (Proc.devRef .tc main_v0) := by not_written hostOps0_1
    _ = _ := by
      show StableHlo.after hostOps0 (W0 m ρ c) (Proc.devRef .tc main_v0) = _
      after_results
      unfold Take.mask Take.wrapped
      simp only [TRef.ofBuf, TRef.toBuf, cast_eq]

/-! ## The later operands: weights and biases no host operation before the first launch writes -/

/-- The first layer's bias is as launched, at the first launch's entry. -/
theorem arg4_at4 : W4 m ρ c (Proc.devRef .tc main_arg4) = m ((c : Thread nD τ).loc main_arg4) :=
  calc W4 m ρ c (Proc.devRef .tc main_arg4)
    _ = W3 m ρ c (Proc.devRef .tc main_arg4) := by not_written hostOps0_3
    _ = W2 m ρ c (Proc.devRef .tc main_arg4) := by not_written hostOps0_2
    _ = W1 m ρ c (Proc.devRef .tc main_arg4) := by not_written hostOps0_1
    _ = W0 m ρ c (Proc.devRef .tc main_arg4) := by not_written hostOps0
    _ = m ((c : Thread nD τ).loc main_arg4) := rfl

/-- The second layer's weights are as launched, at the first launch's entry. -/
theorem arg5_at4 : W4 m ρ c (Proc.devRef .tc main_arg5) = m ((c : Thread nD τ).loc main_arg5) :=
  calc W4 m ρ c (Proc.devRef .tc main_arg5)
    _ = W3 m ρ c (Proc.devRef .tc main_arg5) := by not_written hostOps0_3
    _ = W2 m ρ c (Proc.devRef .tc main_arg5) := by not_written hostOps0_2
    _ = W1 m ρ c (Proc.devRef .tc main_arg5) := by not_written hostOps0_1
    _ = W0 m ρ c (Proc.devRef .tc main_arg5) := by not_written hostOps0
    _ = m ((c : Thread nD τ).loc main_arg5) := rfl

/-- The second layer's bias is as launched, at the first launch's entry. -/
theorem arg6_at4 : W4 m ρ c (Proc.devRef .tc main_arg6) = m ((c : Thread nD τ).loc main_arg6) :=
  calc W4 m ρ c (Proc.devRef .tc main_arg6)
    _ = W3 m ρ c (Proc.devRef .tc main_arg6) := by not_written hostOps0_3
    _ = W2 m ρ c (Proc.devRef .tc main_arg6) := by not_written hostOps0_2
    _ = W1 m ρ c (Proc.devRef .tc main_arg6) := by not_written hostOps0_1
    _ = W0 m ρ c (Proc.devRef .tc main_arg6) := by not_written hostOps0
    _ = m ((c : Thread nD τ).loc main_arg6) := rfl

/-- The classifier's weights are as launched, at the first launch's entry. -/
theorem arg7_at4 : W4 m ρ c (Proc.devRef .tc main_arg7) = m ((c : Thread nD τ).loc main_arg7) :=
  calc W4 m ρ c (Proc.devRef .tc main_arg7)
    _ = W3 m ρ c (Proc.devRef .tc main_arg7) := by not_written hostOps0_3
    _ = W2 m ρ c (Proc.devRef .tc main_arg7) := by not_written hostOps0_2
    _ = W1 m ρ c (Proc.devRef .tc main_arg7) := by not_written hostOps0_1
    _ = W0 m ρ c (Proc.devRef .tc main_arg7) := by not_written hostOps0
    _ = m ((c : Thread nD τ).loc main_arg7) := rfl

/-- The classifier's bias is as launched, at the first launch's entry. -/
theorem arg8_at4 : W4 m ρ c (Proc.devRef .tc main_arg8) = m ((c : Thread nD τ).loc main_arg8) :=
  calc W4 m ρ c (Proc.devRef .tc main_arg8)
    _ = W3 m ρ c (Proc.devRef .tc main_arg8) := by not_written hostOps0_3
    _ = W2 m ρ c (Proc.devRef .tc main_arg8) := by not_written hostOps0_2
    _ = W1 m ρ c (Proc.devRef .tc main_arg8) := by not_written hostOps0_1
    _ = W0 m ρ c (Proc.devRef .tc main_arg8) := by not_written hostOps0
    _ = m ((c : Thread nD τ).loc main_arg8) := rfl

end Cert.KernelIdeal.Chain

end
-- ==== Proof.LibDenseRows.lean ====
/-
  Dense layers over matrices of extended reals, row by row.

  A matrix product (mm), a bias row added to every row (addRow), the positive part (relu) and a row-wise
  softmax (softmaxRows: each entry's exponential of its distance to the row's maximum, over the row's sum of those
  exponentials) are stated here as plain functions of indices, over matrices of any extents. Three kinds of facts:

  * each is ROW-LOCAL: row p of the result depends on row p of the first operand only, so that the result computed
    from a band of rows of a matrix is that band of rows of the result computed from the whole matrix
    (mm_rows, addRow_rows, relu_rows, softmaxRows_rows);
  * the vector-unit spelling of each (a product accumulated into a zero splat, a one-row cast broadcast down the rows,
    a lane maximum and a lane sum kept as a column and broadcast across the row) is that function;
  * the host spelling of each (a dot_general, broadcast_in_dims, one-operand reduces) is that function too.

  Nothing here uses more of the extended reals than 0 + x = x and max ⊥ x = x, so every statement holds at the
  infinities as well.
-/
import Idealize.ShloMosaic.Lib.StackMember
import Idealize.ShloMosaic.Lib.KernelVsHost
import Idealize.ShloMosaic.Lib.ValueIdx
import Idealize.ShloMosaic.Lib.ValueLayout
import Idealize.ShloMosaic.PureOps.Ideal.Laws

noncomputable section

open scoped BigOperators

namespace DenseRows

open Idealize.ShloMosaic Idealize.ShloMosaic.ValueIdx

/-- An m × n matrix of extended reals, indexed by (row, column). -/
abbrev Mat (m n : Nat) : Type := FVec Ideal (⟨2, ![m, n]⟩ : Shape) .f32

/-! ## The functions -/

/-- The matrix product: entry (a, b) is the sum over c of A (a, c) · B (c, b). -/
def mm {m k n : Nat} (A : Mat m k) (B : Mat k n) : Mat m n :=
  fun i => ∑ c : Fin k, A (ix2 (i 0) c) * B (ix2 c (i 1))

/-- A one-row matrix added to every row. -/
def addRow {m n : Nat} (Z : Mat m n) (r : Mat 1 n) : Mat m n :=
  fun i => Z i + r (ix2 (0 : Fin 1) (i 1))

/-- The positive part, entry by entry. -/
def relu {m n : Nat} (Z : Mat m n) : Mat m n := fun i => max (Z i) 0

/-- The largest entry of row a (the bottom element for a matrix with no columns). -/
def rowMax {m n : Nat} (Z : Mat m n) (a : Fin m) : EReal :=
  (Finset.univ : Finset (Fin n)).fold max ⊥ (fun c => Z (ix2 a c))

/-- The row's exponentials of the distances to the row's maximum. -/
def rowExp {m n : Nat} (Z : Mat m n) : Mat m n := fun i => Ideal.exp (Z i - rowMax Z (i 0))

/-- Row-wise softmax: each such exponential over the sum of its row's. -/
def softmaxRows {m n : Nat} (Z : Mat m n) : Mat m n :=
  fun i => Ideal.div (rowExp Z i) (∑ c : Fin n, rowExp Z (ix2 (i 0) c))

/-- A vector as a one-row matrix. -/
def asRow {n : Nat} (b : FVec Ideal (⟨1, ![n]⟩ : Shape) .f32) : Mat 1 n := fun i => b (ix1 (i 1))

theorem mm_apply {m k n : Nat} (A : Mat m k) (B : Mat k n) (a : Fin m) (b : Fin n) :
    mm A B (ix2 a b) = ∑ c : Fin k, A (ix2 a c) * B (ix2 c b) := rfl

/-! ## Row-locality -/

/-- Row p of X being row P of A, row p of X · B is row P of A · B. -/
theorem mm_rows {m M k n : Nat} (X : Mat m k) (A : Mat M k) (B : Mat k n) (p : Fin m) (P : Fin M)
    (h : ∀ c, X (ix2 p c) = A (ix2 P c)) (q : Fin n) : mm X B (ix2 p q) = mm A B (ix2 P q) := by
  rw [mm_apply, mm_apply]
  exact Finset.sum_congr rfl fun c _ => by rw [h c]

theorem addRow_rows {m M n : Nat} (X : Mat m n) (A : Mat M n) (r : Mat 1 n) (p : Fin m) (P : Fin M)
    (h : ∀ c, X (ix2 p c) = A (ix2 P c)) (q : Fin n) : addRow X r (ix2 p q) = addRow A r (ix2 P q) := by
  show X (ix2 p q) + r (ix2 (0 : Fin 1) q) = A (ix2 P q) + r (ix2 (0 : Fin 1) q)
  rw [h q]

theorem relu_rows {m M n : Nat} (X : Mat m n) (A : Mat M n) (p : Fin m) (P : Fin M)
    (h : ∀ c, X (ix2 p c) = A (ix2 P c)) (q : Fin n) : relu X (ix2 p q) = relu A (ix2 P q) := by
  show max (X (ix2 p q)) 0 = max (A (ix2 P q)) 0
  rw [h q]

theorem rowMax_rows {m M n : Nat} (X : Mat m n) (A : Mat M n) (p : Fin m) (P : Fin M)
    (h : ∀ c, X (ix2 p c) = A (ix2 P c)) : rowMax X p = rowMax A P := by
  unfold rowMax
  rw [show (fun c => X (ix2 p c)) = fun c => A (ix2 P c) from funext h]

theorem rowExp_rows {m M n : Nat} (X : Mat m n) (A : Mat M n) (p : Fin m) (P : Fin M)
    (h : ∀ c, X (ix2 p c) = A (ix2 P c)) (q : Fin n) : rowExp X (ix2 p q) = rowExp A (ix2 P q) := by
  show Ideal.exp (X (ix2 p q) - rowMax X p) = Ideal.exp (A (ix2 P q) - rowMax A P)
  rw [h q, rowMax_rows X A p P h]

theorem softmaxRows_rows {m M n : Nat} (X : Mat m n) (A : Mat M n) (p : Fin m) (P : Fin M)
    (h : ∀ c, X (ix2 p c) = A (ix2 P c)) (q : Fin n) : softmaxRows X (ix2 p q) = softmaxRows A (ix2 P q) := by
  show Ideal.div (rowExp X (ix2 p q)) (∑ c : Fin n, rowExp X (ix2 p c))
    = Ideal.div (rowExp A (ix2 P q)) (∑ c : Fin n, rowExp A (ix2 P c))
  rw [rowExp_rows X A p P h q]
  exact congrArg _ (Finset.sum_congr rfl fun c _ => rowExp_rows X A p P h c)

end DenseRows

end
-- ==== Proof.LibDenseForms.lean ====
/-
  The two spellings of the dense-layer functions of LibDenseRows.

  The vector unit multiplies into a zero accumulator, broadcasts a one-row value down the rows, and keeps a lane
  maximum or a lane sum as a column that it broadcasts across the row; the host program contracts with dot_general,
  broadcasts in named dimensions and reduces with an initial value. Read at the extended reals, each spelling is the
  plain function of indices: the accumulator and the sum's initial value are 0 (0 + x = x), the maximum's initial
  value is the bottom element (max ⊥ x = x), and a broadcast reads its operand at the index with the broadcast
  coordinate dropped.
-/
import proofs.«411217_j90606630076993_1_alg».proof.Proof.LibDenseRows

noncomputable section

open scoped BigOperators

namespace DenseRows

open Idealize.ShloMosaic Idealize.ShloMosaic.ValueIdx

/-- A length-m vector of extended reals. -/
abbrev Col (m : Nat) : Type := FVec Ideal (⟨1, ![m]⟩ : Shape) .f32

/-! ## The product -/

/-- The host's contraction of an m×k by a k×n matrix is the matrix product. -/
theorem dotGeneral_plain_eq_mm {m k n : Nat} (prec : Option ContractPrecision) (A : Mat m k) (B : Mat k n) :
    Host.dotGeneral (DotDims.plain m k n) prec A B = mm A B := by
  funext i
  obtain ⟨a, b, rfl⟩ : ∃ (a : Fin m) (b : Fin n), i = ix2 a b := ⟨i 0, i 1, eq_ix2 i⟩
  exact StackMember.dotGeneral_plain_apply prec A B a b

/-- The vector unit's product accumulated into the zero splat is the matrix product. -/
theorem matmul_plain_eq_mm {m k n : Nat} (prec : Option ContractPrecision) (A : Mat m k) (B : Mat k n) :
    matmul (DotDims.plain m k n) prec A B (constant (⟨2, ![m, n]⟩ : Shape) .f32 0x00000000#32) = mm A B :=
  (matmul_zero_eq_dotGeneral _ prec A B).trans (dotGeneral_plain_eq_mm prec A B)

/-! ## A bias row and the positive part -/

/-- A one-row value broadcast down the rows and added: the bias row added to every row. -/
theorem bias_vector_form {m n : Nat} (Z : Mat m n) (r : Mat 1 n)
    (hb : (⟨2, ![1, n]⟩ : Shape).Broadcasts ⟨2, ![m, n]⟩) :
    addf Z (broadcastTo (⟨2, ![m, n]⟩ : Shape) r hb) = addRow Z r := by
  funext i
  obtain ⟨p, q, rfl⟩ : ∃ (p : Fin m) (q : Fin n), i = ix2 p q := ⟨i 0, i 1, eq_ix2 i⟩
  show Z (ix2 p q) + broadcastTo (⟨2, ![m, n]⟩ : Shape) r hb (ix2 p q) = Z (ix2 p q) + r (ix2 (0 : Fin 1) q)
  rw [broadcastTo_1b_ab_apply]

/-- The host's broadcast of a one-row matrix in dimensions (0, 1), added: the same. -/
theorem bias_host_form {m n : Nat} (Z : Mat m n) (r : Mat 1 n)
    (hb : (⟨2, ![1, n]⟩ : Shape).BroadcastsInDim ⟨2, ![m, n]⟩ ![0, 1]) :
    addf Z (broadcastInDim (⟨2, ![m, n]⟩ : Shape) ![0, 1] hb r) = addRow Z r := by
  funext i
  obtain ⟨p, q, rfl⟩ : ∃ (p : Fin m) (q : Fin n), i = ix2 p q := ⟨i 0, i 1, eq_ix2 i⟩
  show Z (ix2 p q) + broadcastInDim (⟨2, ![m, n]⟩ : Shape) ![0, 1] hb r (ix2 p q) = Z (ix2 p q) + r (ix2 (0 : Fin 1) q)
  rw [broadcastInDim_oneRow_apply]

/-- The maximum with a splat of the zero word is the positive part. -/
theorem relu_vector_form {m n : Nat} (Z : Mat m n) :
    maximumf Z (broadcast (⟨2, ![m, n]⟩ : Shape) (Scalar.ofBits (F := Ideal) .f32 0x00000000#32)) = relu Z := by
  funext i
  show max (Z i) (Ideal.ofBits .f32 0x00000000#32) = max (Z i) 0
  rw [Ideal.ofBits_zero_f32]

/-- The maximum with the host's broadcast of the zero constant is the positive part. -/
theorem relu_host_form {m n : Nat} (Z : Mat m n)
    (hb : (⟨0, ![]⟩ : Shape).BroadcastsInDim ⟨2, ![m, n]⟩ ![]) :
    maximumf Z (broadcastInDim (⟨2, ![m, n]⟩ : Shape) ![] hb (constant (⟨0, ![]⟩ : Shape) .f32 0x00000000#32)) = relu Z := by
  funext i
  show max (Z i) (Ideal.ofBits .f32 0x00000000#32) = max (Z i) 0
  rw [Ideal.ofBits_zero_f32]

/-- A vector cast to one row is that row. -/
theorem shapeCast_asRow {n : Nat} (b : Col n) (h : (⟨1, ![n]⟩ : Shape).ShapeCasts ⟨2, ![1, n]⟩) :
    shapeCast (⟨2, ![1, n]⟩ : Shape) b h = asRow b := by
  funext i
  obtain ⟨u, q, rfl⟩ : ∃ (u : Fin 1) (q : Fin n), i = ix2 u q := ⟨i 0, i 1, eq_ix2 i⟩
  exact shapeCast_a_1a_apply b h u q

/-- A vector broadcast along axis 1 of a one-row matrix is that row. -/
theorem broadcastInDim_asRow {n : Nat} (b : Col n) (h : (⟨1, ![n]⟩ : Shape).BroadcastsInDim ⟨2, ![1, n]⟩ ![1]) :
    broadcastInDim (⟨2, ![1, n]⟩ : Shape) ![1] h b = asRow b := by
  funext i
  obtain ⟨u, q, rfl⟩ : ∃ (u : Fin 1) (q : Fin n), i = ix2 u q := ⟨i 0, i 1, eq_ix2 i⟩
  refine broadcastInDim_apply ![1] h b (ix2 u q) (ix1 q) fun a => ?_
  match a with
  | ⟨0, _⟩ =>
    show q.val = if n = 1 then 0 else q.val
    split
    · have := q.isLt; omega
    · rfl

/-! ## A row's maximum and a row's sum, kept as a column -/

theorem ofBits_neg_inf : Ideal.ofBits .f32 0xFF800000#32 = (⊥ : EReal) := by simp [Ideal.ofBits, Ideal.ieee]

/-- The reduced index p with column k put back is (p, k). -/
theorem lift_row {m n : Nat} (h : Shape.Reduces (⟨2, ![m, n]⟩ : Shape) [(1 : Fin 2)] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- The vector unit's lane maximum from minus infinity is the row's maximum. -/
theorem laneMax_eq_rowMax {m n : Nat} (Z : Mat m n) (h : Shape.Reduces (⟨2, ![m, n]⟩ : Shape) [(1 : Fin 2)] (⟨1, ![m]⟩ : Shape))
    (hφ : FKind.Formats .f32) (hacc : (0xFF800000#32 : BitVec 32) = FKind.maximumf.neutral .f32 hφ) (p : Fin m) :
    multiReduction .maximumf [(1 : Fin 2)] (⟨1, ![m]⟩ : Shape) Z 0xFF800000#32 h hφ hacc (ix1 p) = rowMax Z p := by
  rw [Ideal.multiReduction_maximumf_single]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The vector unit's lane sum from zero is the row's sum. -/
theorem laneSum_eq_rowSum {m n : Nat} (E : Mat m n) (h : Shape.Reduces (⟨2, ![m, n]⟩ : Shape) [(1 : Fin 2)] (⟨1, ![m]⟩ : Shape))
    (hφ : FKind.Formats .f32) (hacc : (0x00000000#32 : BitVec 32) = FKind.add.neutral .f32 hφ) (p : Fin m) :
    multiReduction .add [(1 : Fin 2)] (⟨1, ![m]⟩ : Shape) E 0x00000000#32 h hφ hacc (ix1 p) = ∑ c : Fin n, E (ix2 p c) := by
  rw [Ideal.multiReduction_add_single]
  show ∑ k : Fin n, E (h.lift (ix1 p) k) = _
  exact Finset.sum_congr rfl fun k _ => congrArg E (lift_row h p k)

/-- The host's reduce with a maximum body from minus infinity is the row's maximum. -/
theorem hostMax_eq_rowMax {m n : Nat} (Z : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduce FloatOps.maximumf Z (constant (⟨0, ![]⟩ : Shape) .f32 0xFF800000#32) h' hu (ix1 p) = rowMax Z p := by
  rw [Host.reduce_eq_fold_single FloatOps.maximumf Z _ h' h hu]
  unfold rowMax
  show Finset.fold max (Ideal.ofBits .f32 0xFF800000#32) (Z ∘ h.lift (ix1 p)) (Finset.univ : Finset (Fin n)) = _
  rw [ofBits_neg_inf]
  exact congrArg (fun f => Finset.fold max ⊥ f Finset.univ) (funext fun k => congrArg Z (lift_row h p k))

/-- The host's sum over axis 1 from zero is the row's sum. -/
theorem hostSum_eq_rowSum {m n : Nat} (E : Mat m n) (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel) (p : Fin m) :
    Host.reduceAdd E (constant (⟨0, ![]⟩ : Shape) .f32 0x00000000#32) h' hu (ix1 p) = ∑ c : Fin n, E (ix2 p c) := by
  show Ideal.hostReduceAdd h' E (Ideal.ofBits .f32 0x00000000#32) (ix1 p) = _
  rw [Ideal.hostReduceAdd_single h' h, Ideal.ofBits_zero_f32, zero_add]
  show ∑ k : Fin n, E (h.lift (ix1 p) k) = _
  exact Finset.sum_congr rfl fun k _ => congrArg E (lift_row h p k)

/-- A vector cast to a column and broadcast across the row reads, at (p, q), the vector at p. -/
theorem column_vector_form {m n : Nat} (v : Col m) (hc : (⟨1, ![m]⟩ : Shape).ShapeCasts ⟨2, ![m, 1]⟩)
    (hb : (⟨2, ![m, 1]⟩ : Shape).Broadcasts ⟨2, ![m, n]⟩) (p : Fin m) (q : Fin n) :
    broadcastTo (⟨2, ![m, n]⟩ : Shape) (shapeCast (⟨2, ![m, 1]⟩ : Shape) v hc) hb (ix2 p q) = v (ix1 p) := by
  rw [broadcastTo_apply _ hb (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact shapeCast_apply v hc _ (ix1 p) (by
    rw [Shape.rowMajor_val_one, Shape.rowMajor_val_two]
    show p.val = p.val * 1 + 0
    omega)

/-- The host's two broadcasts (a vector to a column, the column across the row) read, at (p, q), the vector at p. -/
theorem column_host_form {m n : Nat} (v : Col m) (h1 : (⟨1, ![m]⟩ : Shape).BroadcastsInDim ⟨2, ![m, 1]⟩ ![0])
    (h2 : (⟨2, ![m, 1]⟩ : Shape).BroadcastsInDim ⟨2, ![m, n]⟩ ![0, 1]) (p : Fin m) (q : Fin n) :
    broadcastInDim (⟨2, ![m, n]⟩ : Shape) ![0, 1] h2 (broadcastInDim (⟨2, ![m, 1]⟩ : Shape) ![0] h1 v) (ix2 p q) = v (ix1 p) := by
  rw [broadcastInDim_apply ![0, 1] h2 _ (ix2 p q) (ix2 p (0 : Fin 1)) (fun ax => by
    match ax with
    | ⟨0, _⟩ =>
      show p.val = if m = 1 then 0 else p.val
      split
      · have := p.isLt; omega
      · rfl
    | ⟨1, _⟩ =>
      show 0 = if (1 : Nat) = 1 then 0 else q.val
      rw [if_pos rfl])]
  exact broadcastInDim_apply ![0] h1 v (ix2 p (0 : Fin 1)) (ix1 p) (fun ax => by
    match ax with
    | ⟨0, _⟩ =>
      show p.val = if m = 1 then 0 else p.val
      split
      · have := p.isLt; omega
      · rfl)

/-! ## The row-wise softmax, whole -/

/-- The vector unit's softmax of a block of rows: the lane maximum kept as a column and subtracted, the exponential,
    the lane sum kept as a column, the quotient. -/
theorem softmax_vector_form {m n : Nat} (Z : Mat m n)
    (h : Shape.Reduces (⟨2, ![m, n]⟩ : Shape) [(1 : Fin 2)] (⟨1, ![m]⟩ : Shape))
    (hφ₁ : FKind.Formats .f32) (hmax : (0xFF800000#32 : BitVec 32) = FKind.maximumf.neutral .f32 hφ₁)
    (hφ₂ : FKind.Formats .f32) (hadd : (0x00000000#32 : BitVec 32) = FKind.add.neutral .f32 hφ₂)
    (hc : (⟨1, ![m]⟩ : Shape).ShapeCasts ⟨2, ![m, 1]⟩) (hb : (⟨2, ![m, 1]⟩ : Shape).Broadcasts ⟨2, ![m, n]⟩) :
    divf
      (exp (subf Z (broadcastTo (⟨2, ![m, n]⟩ : Shape) (shapeCast (⟨2, ![m, 1]⟩ : Shape)
        (multiReduction .maximumf [(1 : Fin 2)] (⟨1, ![m]⟩ : Shape) Z 0xFF800000#32 h hφ₁ hmax) hc) hb)))
      (broadcastTo (⟨2, ![m, n]⟩ : Shape) (shapeCast (⟨2, ![m, 1]⟩ : Shape)
        (multiReduction .add [(1 : Fin 2)] (⟨1, ![m]⟩ : Shape)
          (exp (subf Z (broadcastTo (⟨2, ![m, n]⟩ : Shape) (shapeCast (⟨2, ![m, 1]⟩ : Shape)
            (multiReduction .maximumf [(1 : Fin 2)] (⟨1, ![m]⟩ : Shape) Z 0xFF800000#32 h hφ₁ hmax) hc) hb)))
          0x00000000#32 h hφ₂ hadd) hc) hb)
      = softmaxRows Z := by
  have hE : exp (subf Z (broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb)) = rowExp Z := by
    funext i
    obtain ⟨p, q, rfl⟩ : ∃ (p : Fin m) (q : Fin n), i = ix2 p q := ⟨i 0, i 1, eq_ix2 i⟩
    show Ideal.exp (Z (ix2 p q) - broadcastTo (⟨2, ![m, n]⟩ : Shape) (shapeCast (⟨2, ![m, 1]⟩ : Shape)
      (multiReduction .maximumf [(1 : Fin 2)] (⟨1, ![m]⟩ : Shape) Z 0xFF800000#32 h hφ₁ hmax) hc) hb (ix2 p q))
        = Ideal.exp (Z (ix2 p q) - rowMax Z p)
    rw [column_vector_form, laneMax_eq_rowMax]
  rw [hE]
  funext i
  obtain ⟨p, q, rfl⟩ : ∃ (p : Fin m) (q : Fin n), i = ix2 p q := ⟨i 0, i 1, eq_ix2 i⟩
  show Ideal.div (rowExp Z (ix2 p q)) (broadcastTo (⟨2, ![m, n]⟩ : Shape) (shapeCast (⟨2, ![m, 1]⟩ : Shape)
      (multiReduction .add [(1 : Fin 2)] (⟨1, ![m]⟩ : Shape) (rowExp Z) 0x00000000#32 h hφ₂ hadd) hc) hb (ix2 p q))
    = Ideal.div (rowExp Z (ix2 p q)) (∑ c : Fin n, rowExp Z (ix2 p c))
  rw [column_vector_form, laneSum_eq_rowSum]

/-- The host's softmax of a matrix: the reduce with a maximum body (and one more maximum with minus infinity), the
    two broadcasts, the subtraction, the exponential, the sum, the two broadcasts, the quotient. -/
theorem softmax_host_form {m n : Nat} (Z : Mat m n)
    (h' : Shape.ReducesTo (⟨2, ![m, n]⟩ : Shape) [(1 : Fin 2)] (⟨1, ![m]⟩ : Shape))
    (h : Shape.Reduces (⟨2, ![m, n]⟩ : Shape) [(1 : Fin 2)] (⟨1, ![m]⟩ : Shape)) (hu : 0 < (⟨0, ![]⟩ : Shape).numel)
    (h0 : (⟨0, ![]⟩ : Shape).BroadcastsInDim ⟨1, ![m]⟩ ![])
    (h1 : (⟨1, ![m]⟩ : Shape).BroadcastsInDim ⟨2, ![m, 1]⟩ ![0])
    (h2 : (⟨2, ![m, 1]⟩ : Shape).BroadcastsInDim ⟨2, ![m, n]⟩ ![0, 1]) :
    Host.divf
      (Host.exp (subf Z (broadcastInDim (⟨2, ![m, n]⟩ : Shape) ![0, 1] h2 (broadcastInDim (⟨2, ![m, 1]⟩ : Shape) ![0] h1
        (maximumf (broadcastInDim (⟨1, ![m]⟩ : Shape) ![] h0 (constant (⟨0, ![]⟩ : Shape) .f32 0xFF800000#32))
          (Host.reduce FloatOps.maximumf Z (constant (⟨0, ![]⟩ : Shape) .f32 0xFF800000#32) h' hu))))))
      (broadcastInDim (⟨2, ![m, n]⟩ : Shape) ![0, 1] h2 (broadcastInDim (⟨2, ![m, 1]⟩ : Shape) ![0] h1
        (Host.reduceAdd
          (Host.exp (subf Z (broadcastInDim (⟨2, ![m, n]⟩ : Shape) ![0, 1] h2 (broadcastInDim (⟨2, ![m, 1]⟩ : Shape) ![0] h1
            (maximumf (broadcastInDim (⟨1, ![m]⟩ : Shape) ![] h0 (constant (⟨0, ![]⟩ : Shape) .f32 0xFF800000#32))
              (Host.reduce FloatOps.maximumf Z (constant (⟨0, ![]⟩ : Shape) .f32 0xFF800000#32) h' hu))))))
          (constant (⟨0, ![]⟩ : Shape) .f32 0x00000000#32) h' hu)))
      = softmaxRows Z := by
  have hE : Host.exp (subf Z (broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))))) = rowExp Z := by
    funext i
    obtain ⟨p, q, rfl⟩ : ∃ (p : Fin m) (q : Fin n), i = ix2 p q := ⟨i 0, i 1, eq_ix2 i⟩
    show Ideal.exp (Z (ix2 p q) - broadcastInDim (⟨2, ![m, n]⟩ : Shape) ![0, 1] h2 (broadcastInDim (⟨2, ![m, 1]⟩ : Shape) ![0] h1
      (maximumf (broadcastInDim (⟨1, ![m]⟩ : Shape) ![] h0 (constant (⟨0, ![]⟩ : Shape) .f32 0xFF800000#32))
        (Host.reduce FloatOps.maximumf Z (constant (⟨0, ![]⟩ : Shape) .f32 0xFF800000#32) h' hu))) (ix2 p q))
        = Ideal.exp (Z (ix2 p q) - rowMax Z p)
    rw [column_host_form]
    show Ideal.exp (Z (ix2 p q) - max (Ideal.ofBits .f32 0xFF800000#32)
      (Host.reduce FloatOps.maximumf Z (constant (⟨0, ![]⟩ : Shape) .f32 0xFF800000#32) h' hu (ix1 p))) = _
    rw [ofBits_neg_inf, hostMax_eq_rowMax Z h' h hu, max_bot_left]
  rw [hE]
  funext i
  obtain ⟨p, q, rfl⟩ : ∃ (p : Fin m) (q : Fin n), i = ix2 p q := ⟨i 0, i 1, eq_ix2 i⟩
  show Ideal.div (rowExp Z (ix2 p q)) (broadcastInDim (⟨2, ![m, n]⟩ : Shape) ![0, 1] h2 (broadcastInDim (⟨2, ![m, 1]⟩ : Shape) ![0] h1
      (Host.reduceAdd (rowExp Z) (constant (⟨0, ![]⟩ : Shape) .f32 0x00000000#32) h' hu)) (ix2 p q))
    = Ideal.div (rowExp Z (ix2 p q)) (∑ c : Fin n, rowExp Z (ix2 p c))
  rw [column_host_form, hostSum_eq_rowSum (rowExp Z) h' h hu]

end DenseRows

end
-- ==== Proof.LibBands.lean ====
/-
  Bands of rows of the three dense-layer functions.

  The kernels work on a tall matrix in bands of rows: a band X of a matrix A (row p of X is row P of A) goes through a
  product with a fixed right factor, through a bias row followed by the positive part, or through a product followed
  by a bias row. Each of the three is row-local, so the band's result at (p, q) is the whole matrix's result at (P, q).
  These are the statements the block-to-array steps use; they hold at every extended real.
-/
import proofs.«411217_j90606630076993_1_alg».proof.Proof.LibDenseForms

noncomputable section

namespace DenseRows

open Idealize.ShloMosaic Idealize.ShloMosaic.ValueIdx

/-- The offsets of a load or a store of a whole rank-2 block are all zero. -/
theorem zero_offsets2 : (![0, 0] : Fin 2 → Nat) = fun _ => 0 := funext fun a => by fin_cases a <;> rfl

/-- Row p of a band X being row P of A, and Y being B, entry (p, q) of X Y is entry (P, q) of A B. -/
theorem mm_band {m M k n : Nat} (A : Mat M k) (B : Mat k n) (X : Mat m k) (Y : Mat k n) (p : Fin m) (q : Fin n) (P : Fin M)
    (hX : ∀ c : Fin k, X (ix2 p c) = A (ix2 P c)) (hY : Y = B) : mm X Y (ix2 p q) = mm A B (ix2 P q) := by
  subst hY; exact mm_rows X A Y p P hX q

/-- The same for a bias row added and the positive part taken. -/
theorem reluBias_band {m M n : Nat} (A : Mat M n) (r : Mat 1 n) (X : Mat m n) (s : Mat 1 n) (p : Fin m) (q : Fin n) (P : Fin M)
    (hX : ∀ c : Fin n, X (ix2 p c) = A (ix2 P c)) (hs : s = r) :
    relu (addRow X s) (ix2 p q) = relu (addRow A r) (ix2 P q) := by
  subst hs
  exact relu_rows (addRow X s) (addRow A s) p P (fun c => addRow_rows X A s p P hX c) q

/-- The same for a product followed by a bias row. -/
theorem mmBias_band {m M k n : Nat} (A : Mat M k) (B : Mat k n) (r : Mat 1 n) (X : Mat m k) (Y : Mat k n) (s : Mat 1 n)
    (p : Fin m) (q : Fin n) (P : Fin M) (hX : ∀ c : Fin k, X (ix2 p c) = A (ix2 P c)) (hY : Y = B) (hs : s = r) :
    addRow (mm X Y) s (ix2 p q) = addRow (mm A B) r (ix2 P q) := by
  subst hY hs
  exact addRow_rows (mm X Y) (mm A Y) s p P (fun c => mm_rows X A Y p P hX c) q

end DenseRows

end
-- ==== Proof.Region0.lean ====
/-
  The first product, read off the frame. The region multiplies a 50000 x 128 matrix H by a 128 x 128 matrix W in ten
  bands of 5000 rows: at grid point t the body loads rows [5000 t, 5000 t + 5000) of H and all of W, multiplies them
  into a zero accumulator, and writes the 5000 x 128 result back as the same band of rows of the output. A row of a
  product depends on the same row of its left factor only, so the band of products is that band of the whole product
  H W; the ten bands tile the rows, so the output array ends holding H W, whatever H and W are when the region is
  entered. Read at the extended reals the change of float format before the product is the identity and the product
  into a zero accumulator is the plain sum over the contracted index, so nothing here needs finiteness.
-/
import proofs.«411217_j90606630076993_1_alg».proof.Proof.Gen.KernelIdeal.Frame
import proofs.«411217_j90606630076993_1_alg».proof.Proof.LibBands
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen DenseRows

/-! ## Region 0 -/

/-- The body's stored value is the product of its two loaded blocks. -/
theorem payload0 (x0 : Vec Ideal S5000x128 .f32) (x1 : Vec Ideal S128x128 .f32) : k0_pay1 (F := Ideal) x0 x1 = mm x0 x1 := by
  unfold k0_pay1
  dsimp only
  rw [shapeCast_self]
  exact matmul_plain_eq_mm none x0 x1

/-- What the body leaves in the output window's buffer: the product of the two input blocks. -/
theorem out0_eq (x0 : Vec Ideal S5000x128 .f32) (x1 : Vec Ideal S128x128 .f32) : out0_2 (F := Ideal) x0 x1 = mm x0 x1 := by
  unfold out0_2
  rw [View.canon_unit_zero zero_offsets2]
  simp only [View.ld_unit_zero (S := S5000x128) zero_offsets2, View.ld_unit_zero (S := S128x128) zero_offsets2]
  exact payload0 x0 x1

/-- The index maps over the grid: the left factor's and the output's block follow the grid point down the rows, the
    right factor's block stays where it is. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- WHAT POINT t WRITES BACK is band t of the product of the two arrays as the region finds them. -/
theorem flushed0 (c : Dev nD) (t : Fin cfg0.N) :
    (dat0 V c).flushed 2 t = ((cfg0.win 2).blk t).view.read (Elt Ideal) (mm (m := 50000) (k := 128) (n := 128) (V c main_v0) (V c main_arg3)) := by
  show (cfg0.win 2).cut (grid0.coords t) ((dat0 V c).after 2 t) = _
  rw [after0_2, out0_eq]
  obtain ⟨e0, e1, e2, e3, e4, e5⟩ := index_facts0 t
  have ht : t.val < 10 := Nat.lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hq : q.val < 128 := q.isLt
  show mm (m := 5000) (k := 128) (n := 128) (iblk0 V c 0 t) (iblk0 V c 1 t) (ix2 p q)
    = mm (m := 50000) (k := 128) (n := 128) (V c main_v0) (V c main_arg3) (((cfg0.win 2).blk t).view.emb (ix2 p q))
  have hemb : ((cfg0.win 2).blk t).view.emb (ix2 p q) = ix2 (⟨t.val * 5000 + p.val, by omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  rw [hemb]
  refine mm_band (V c main_v0) (V c main_arg3) (iblk0 V c 0 t) (iblk0 V c 1 t) p q _ (fun k => ?_) ?_
  · have hk : k.val < 128 := k.isLt
    show V c main_v0 (((cfg0.win 0).blk t).view.emb (ix2 p k)) = V c main_v0 (ix2 (⟨t.val * 5000 + p.val, by omega⟩ : Fin 50000) k)
    refine congrArg (V c main_v0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  · funext y
    show V c main_arg3 (((cfg0.win 1).blk t).view.emb y) = V c main_arg3 y
    refine congrArg (V c main_arg3) ?_
    funext a; apply Fin.ext
    match a with
    | ⟨0, _⟩ => show win0_1.index t (0 : Fin 2) * 128 + 1 * (y 0).val = (y 0).val; omega
    | ⟨1, _⟩ => show win0_1.index t (1 : Fin 2) * 128 + 1 * (y 1).val = (y 1).val; omega

/-- An index of the output array is in point t's block iff its row is in band t. -/
theorem mem_block0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- The ten bands tile the rows: every index of the output array is in the block of the point its row's band names. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  refine ⟨⟨(i 0).val / 5000, by rw [show cfg0.N = 10 from N_0]; omega⟩, flush0_2 _, ?_⟩
  rw [mem_block0]
  obtain ⟨e0, e1, e2, e3, e4, e5⟩ := index_facts0 ⟨(i 0).val / 5000, by rw [show cfg0.N = 10 from N_0]; omega⟩
  intro a
  match a with
  | ⟨0, _⟩ =>
    show win0_2.index _ (0 : Fin 2) * 5000 ≤ (i 0).val ∧ (i 0).val < win0_2.index _ (0 : Fin 2) * 5000 + 5000
    rw [e4]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e5]; omega

/-- THE OUTPUT ARRAY after region 0: the product of the two arrays as the region finds them. -/
theorem final0 (c : Dev nD) :
    (dat0 V c).arrAt 2 cfg0.N = mm (m := 50000) (k := 128) (n := 128) (V c main_v0) (V c main_arg3) :=
  (dat0 V c).arrAt_eq_of_cover 2 _ (fun t _ => flushed0 V c t) cover0

end Cert.KernelIdeal.RegionValue

end
-- ==== Proof.Region1.lean ====
/-
  The first layer's bias and positive part, read off the frame. The region takes the 50000 x 128 matrix the scatter
  left and the bias as a 1 x 128 row, in ten bands of 5000 rows: at grid point t the body loads rows
  [5000 t, 5000 t + 5000) of the matrix and the whole row, adds the row to every row of the band, takes the maximum with
  zero and writes the band back. Both steps act entry by entry within a row, so each band is that band of the positive
  part of the whole matrix plus the row; the bands tile the rows, and the output array ends holding that matrix,
  whatever the two arrays hold when the region is entered. Nothing here needs finiteness: the maximum with zero and
  the sum are the extended reals' own.
-/
import proofs.«411217_j90606630076993_1_alg».proof.Proof.Gen.KernelIdeal.Frame
import proofs.«411217_j90606630076993_1_alg».proof.Proof.LibBands
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen DenseRows

/-! ## Region 1 -/

/-- The body's stored value: the bias row added to every row of the loaded band, then the positive part. -/
theorem payload1 (x0 : Vec Ideal S5000x128 .f32) (x1 : Vec Ideal S1x128 .f32) :
    k1_pay1 (F := Ideal) x0 x1 = relu (addRow x0 x1) := by
  unfold k1_pay1
  dsimp only
  rw [shapeCast_self, shapeCast_self, bias_vector_form, relu_vector_form]

/-- What the body leaves in the output window's buffer. -/
theorem out1_eq (x0 : Vec Ideal S5000x128 .f32) (x1 : Vec Ideal S1x128 .f32) :
    out1_2 (F := Ideal) x0 x1 = relu (addRow x0 x1) := by
  unfold out1_2
  rw [View.canon_unit_zero zero_offsets2]
  simp only [View.ld_unit_zero (S := S5000x128) zero_offsets2, View.ld_unit_zero (S := S1x128) zero_offsets2]
  exact payload1 x0 x1

/-- The index maps over the grid: the matrix's and the output's block follow the grid point down the rows, the bias
    row's block stays where it is. -/
theorem index_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- WHAT POINT t WRITES BACK is band t of the positive part of the matrix plus the bias row, of the two arrays as the
    region finds them. -/
theorem flushed1 (c : Dev nD) (t : Fin cfg1.N) :
    (dat1 V c).flushed 2 t = ((cfg1.win 2).blk t).view.read (Elt Ideal)
      (relu (addRow (m := 50000) (n := 128) (V c main_v44) (V c main_v45))) := by
  show (cfg1.win 2).cut (grid1.coords t) ((dat1 V c).after 2 t) = _
  rw [after1_2, out1_eq]
  obtain ⟨e0, e1, e2, e3, e4, e5⟩ := index_facts1 t
  have ht : t.val < 10 := Nat.lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hq : q.val < 128 := q.isLt
  show relu (addRow (m := 5000) (n := 128) (iblk1 V c 0 t) (iblk1 V c 1 t)) (ix2 p q)
    = relu (addRow (m := 50000) (n := 128) (V c main_v44) (V c main_v45)) (((cfg1.win 2).blk t).view.emb (ix2 p q))
  have hemb : ((cfg1.win 2).blk t).view.emb (ix2 p q) = ix2 (⟨t.val * 5000 + p.val, by omega⟩ : Fin 50000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  rw [hemb]
  refine reluBias_band (V c main_v44) (V c main_v45) (iblk1 V c 0 t) (iblk1 V c 1 t) p q _ (fun k => ?_) ?_
  · have hk : k.val < 128 := k.isLt
    show V c main_v44 (((cfg1.win 0).blk t).view.emb (ix2 p k)) = V c main_v44 (ix2 (⟨t.val * 5000 + p.val, by omega⟩ : Fin 50000) k)
    refine congrArg (V c main_v44) ?_
    funext a; apply Fin.ext
    match a with
    | ⟨0, _⟩ => show win1_0.index t (0 : Fin 2) * 5000 + 1 * p.val = t.val * 5000 + p.val; omega
    | ⟨1, _⟩ => show win1_0.index t (1 : Fin 2) * 128 + 1 * k.val = k.val; omega
  · funext y
    show V c main_v45 (((cfg1.win 1).blk t).view.emb y) = V c main_v45 y
    refine congrArg (V c main_v45) ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega

/-- An index of the output array is in point t's block iff its row is in band t. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- The ten bands tile the rows: every index of the output array is in the block of the point its row's band names. -/
theorem cover1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  refine ⟨⟨(i 0).val / 5000, by rw [show cfg1.N = 10 from N_1]; omega⟩, flush1_2 _, ?_⟩
  rw [mem_block1]
  obtain ⟨e0, e1, e2, e3, e4, e5⟩ := index_facts1 ⟨(i 0).val / 5000, by rw [show cfg1.N = 10 from N_1]; omega⟩
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- THE OUTPUT ARRAY after region 1: the positive part of the matrix plus the bias row, of the two arrays as the
    region finds them. -/
theorem final1 (c : Dev nD) :
    (dat1 V c).arrAt 2 cfg1.N = relu (addRow (m := 50000) (n := 128) (V c main_v44) (V c main_v45)) :=
  (dat1 V c).arrAt_eq_of_cover 2 _ (fun t _ => flushed1 V c t) cover1

end Cert.KernelIdeal.RegionValue

end
-- ==== Proof.Region2.lean ====
/- The second product, read off the frame. The region multiplies the 50000 x 128 matrix the first layer left by the
  second layer's 128 x 128 weights, in ten bands of 5000 rows, exactly as the first product does: at grid point t the
  body loads rows [5000 t, 5000 t + 5000) of the left factor and all of the weights, multiplies them into a zero
  accumulator and writes the band back. Row-locality of a product makes each band that band of the whole product, the
  bands tile the rows, and the output array ends holding the whole product of the two arrays as the region finds them.
-/
import proofs.«411217_j90606630076993_1_alg».proof.Proof.Gen.KernelIdeal.Frame
import proofs.«411217_j90606630076993_1_alg».proof.Proof.LibBands
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen DenseRows

/-! ## Region 2 -/

/-- The body's stored value is the product of its two loaded blocks. -/
theorem payload2 (x0 : Vec Ideal S5000x128 .f32) (x1 : Vec Ideal S128x128 .f32) : k2_pay1 (F := Ideal) x0 x1 = mm x0 x1 := by
  unfold k2_pay1
  dsimp only
  rw [shapeCast_self]
  exact matmul_plain_eq_mm none x0 x1

/-- What the body leaves in the output window's buffer: the product of the two input blocks. -/
theorem out2_eq (x0 : Vec Ideal S5000x128 .f32) (x1 : Vec Ideal S128x128 .f32) : out2_2 (F := Ideal) x0 x1 = mm x0 x1 := by
  unfold out2_2
  rw [View.canon_unit_zero zero_offsets2]
  simp only [View.ld_unit_zero (S := S5000x128) zero_offsets2, View.ld_unit_zero (S := S128x128) zero_offsets2]
  exact payload2 x0 x1

/-- The index maps over the grid: the left factor's and the output's block follow the grid point down the rows, the
    right factor's block stays where it is. -/
theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- WHAT POINT t WRITES BACK is band t of the product of the two arrays as the region finds them. -/
theorem flushed2 (c : Dev nD) (t : Fin cfg2.N) :
    (dat2 V c).flushed 2 t = ((cfg2.win 2).blk t).view.read (Elt Ideal) (mm (m := 50000) (k := 128) (n := 128) (V c main_v46) (V c main_arg5)) := by
  show (cfg2.win 2).cut (grid2.coords t) ((dat2 V c).after 2 t) = _
  rw [after2_2, out2_eq]
  obtain ⟨e0, e1, e2, e3, e4, e5⟩ := index_facts2 t
  have ht : t.val < 10 := Nat.lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hq : q.val < 128 := q.isLt
  show mm (m := 5000) (k := 128) (n := 128) (iblk2 V c 0 t) (iblk2 V c 1 t) (ix2 p q)
    = mm (m := 50000) (k := 128) (n := 128) (V c main_v46) (V c main_arg5) (((cfg2.win 2).blk t).view.emb (ix2 p q))
  have hemb : ((cfg2.win 2).blk t).view.emb (ix2 p q) = ix2 (⟨t.val * 5000 + p.val, by omega⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  rw [hemb]
  refine mm_band (V c main_v46) (V c main_arg5) (iblk2 V c 0 t) (iblk2 V c 1 t) p q _ (fun k => ?_) ?_
  · have hk : k.val < 128 := k.isLt
    show V c main_v46 (((cfg2.win 0).blk t).view.emb (ix2 p k)) = V c main_v46 (ix2 (⟨t.val * 5000 + p.val, by omega⟩ : Fin 50000) k)
    refine congrArg (V c main_v46) ?_
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  · funext y
    show V c main_arg5 (((cfg2.win 1).blk t).view.emb y) = V c main_arg5 y
    refine congrArg (V c main_arg5) ?_
    funext a; apply Fin.ext
    match a with
    | ⟨0, _⟩ => show win2_1.index t (0 : Fin 2) * 128 + 1 * (y 0).val = (y 0).val; omega
    | ⟨1, _⟩ => show win2_1.index t (1 : Fin 2) * 128 + 1 * (y 1).val = (y 1).val; omega

/-- An index of the output array is in point t's block iff its row is in band t. -/
theorem mem_block2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v47).slice (win2_2.rect t)).set ↔ _
  rw [View.set_slice_whole, Rect.mem_set_unit]
  exact Iff.rfl

/-- The ten bands tile the rows: every index of the output array is in the block of the point its row's band names. -/
theorem cover2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  refine ⟨⟨(i 0).val / 5000, by rw [show cfg2.N = 10 from N_2]; omega⟩, flush2_2 _, ?_⟩
  rw [mem_block2]
  obtain ⟨e0, e1, e2, e3, e4, e5⟩ := index_facts2 ⟨(i 0).val / 5000, by rw [show cfg2.N = 10 from N_2]; omega⟩
  intro a
  match a with
  | ⟨0, _⟩ =>
    show win2_2.index _ (0 : Fin 2) * 5000 ≤ (i 0).val ∧ (i 0).val < win2_2.index _ (0 : Fin 2) * 5000 + 5000
    rw [e4]; show (i 0).val / 5000 * 5000 ≤ (i 0).val ∧ (i 0).val < (i 0).val / 5000 * 5000 + 5000; omega
  | ⟨1, _⟩ =>
    show win2_2.index _ (1 : Fin 2) * 128 ≤ (i 1).val ∧ (i 1).val < win2_2.index _ (1 : Fin 2) * 128 + 128
    rw [e5]; omega

/-- THE OUTPUT ARRAY after region 2: the product of the two arrays as the region finds them. -/
theorem final2 (c : Dev nD) :
    (dat2 V c).arrAt 2 cfg2.N = mm (m := 50000) (k := 128) (n := 128) (V c main_v46) (V c main_arg5) :=
  (dat2 V c).arrAt_eq_of_cover 2 _ (fun t _ => flushed2 V c t) cover2

end Cert.KernelIdeal.RegionValue

end
-- ==== Proof.Region3.lean ====
/- The second layer's bias and positive part, read off the frame: the same region as the first layer's, on the second
  scatter's result and the second bias row. At grid point t the body loads rows [5000 t, 5000 t + 5000) of the matrix and
  the whole 1 x 128 row, adds the row to every row of the band, takes the maximum with zero and writes the band back;
  each band is that band of the positive part of the whole matrix plus the row, the ten bands tile the rows, and the
  output array ends holding that matrix, whatever the two arrays hold when the region is entered.
-/
import proofs.«411217_j90606630076993_1_alg».proof.Proof.Gen.KernelIdeal.Frame
import proofs.«411217_j90606630076993_1_alg».proof.Proof.LibBands
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen DenseRows

/-! ## Region 3 -/

/-- The body's stored value: the bias row added to every row of the loaded band, then the positive part. -/
theorem payload3 (x0 : Vec Ideal S5000x128 .f32) (x1 : Vec Ideal S1x128 .f32) :
    k3_pay1 (F := Ideal) x0 x1 = relu (addRow x0 x1) := by
  unfold k3_pay1
  dsimp only
  rw [shapeCast_self, shapeCast_self, bias_vector_form, relu_vector_form]

/-- What the body leaves in the output window's buffer. -/
theorem out3_eq (x0 : Vec Ideal S5000x128 .f32) (x1 : Vec Ideal S1x128 .f32) :
    out3_2 (F := Ideal) x0 x1 = relu (addRow x0 x1) := by
  unfold out3_2
  rw [View.canon_unit_zero zero_offsets2]
  simp only [View.ld_unit_zero (S := S5000x128) zero_offsets2, View.ld_unit_zero (S := S1x128) zero_offsets2]
  exact payload3 x0 x1

/-- The index maps over the grid: the matrix's and the output's block follow the grid point down the rows, the bias
    row's block stays where it is. -/
theorem index_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

variable (V : (c : Dev nD) → (b : Ref sig .tc) → Buf (Elt Ideal) ((c : Thread nD τ).loc b))

/-- WHAT POINT t WRITES BACK is band t of the positive part of the matrix plus the bias row, of the two arrays as the
    region finds them. -/
theorem flushed3 (c : Dev nD) (t : Fin cfg3.N) :
    (dat3 V c).flushed 2 t = ((cfg3.win 2).blk t).view.read (Elt Ideal)
      (relu (addRow (m := 50000) (n := 128) (V c main_v60) (V c main_v61))) := by
  show (cfg3.win 2).cut (grid3.coords t) ((dat3 V c).after 2 t) = _
  rw [after3_2, out3_eq]
  obtain ⟨e0, e1, e2, e3, e4, e5⟩ := index_facts3 t
  have ht : t.val < 10 := Nat.lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hq : q.val < 128 := q.isLt
  show relu (addRow (m := 5000) (n := 128) (iblk3 V c 0 t) (iblk3 V c 1 t)) (ix2 p q)
    = relu (addRow (m := 50000) (n := 128) (V c main_v60) (V c main_v61)) (((cfg3.win 2).blk t).view.emb (ix2 p q))
  have hemb : ((cfg3.win 2).blk t).view.emb (ix2 p q) = ix2 (⟨t.val * 5000 + p.val, by omega⟩ : Fin 50000) q := by
    funext a; apply Fin.ext
    match a with
    | ⟨0, _⟩ => show win3_2.index t (0 : Fin 2) * 5000 + 1 * p.val = t.val * 5000 + p.val; omega
    | ⟨1, _⟩ => show win3_2.index t (1 : Fin 2) * 128 + 1 * q.val = q.val; omega
  rw [hemb]
  refine reluBias_band (V c main_v60) (V c main_v61) (iblk3 V c 0 t) (iblk3 V c 1 t) p q _ (fun k => ?_) ?_
  · have hk : k.val < 128 := k.isLt
    show V c main_v60 (((cfg3.win 0).blk t).view.emb (ix2 p k)) = V c main_v60 (ix2 (⟨t.val * 5000 + p.val, by omega⟩ : Fin 50000) k)
    refine congrArg (V c main_v60) ?_
    funext a; apply Fin.ext
    match a with
    | ⟨0, _⟩ => show win3_0.index t (0 : Fin 2) * 5000 + 1 * p.val = t.val * 5000 + p.val; omega
    | ⟨1, _⟩ => show win3_0.index t (1 : Fin 2) * 128 + 1 * k.val = k.val; omega
  · funext y
    show V c main_v61 (((cfg3.win 1).blk t).view.emb y) = V c main_v61 y
    refine congrArg (V c main_v61) ?_
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega

/-- An index of the output array is in point t's block iff its row is in band t. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- The ten bands tile the rows: every index of the output array is in the block of the point its row's band names. -/
theorem cover3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  refine ⟨⟨(i 0).val / 5000, by rw [show cfg3.N = 10 from N_3]; omega⟩, flush3_2 _, ?_⟩
  rw [mem_block3]
  obtain ⟨e0, e1, e2, e3, e4, e5⟩ := index_facts3 ⟨(i 0).val / 5000, by rw [show cfg3.N = 10 from N_3]; omega⟩
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- THE OUTPUT ARRAY after region 3: the positive part of the matrix plus the bias row, of the two arrays as the
    region finds them. -/
theorem final3 (c : Dev nD) :
    (dat3 V c).arrAt 2 cfg3.N = relu (addRow (m := 50000) (n := 128) (V c main_v60) (V c main_v61)) :=
  (dat3 V c).arrAt_eq_of_cover 2 _ (fun t _ => flushed3 V c t) cover3

end Cert.KernelIdeal.RegionValue

end
-- ==== Proof.Region4.lean ====
/-
  The classifier's product and bias, read off the frame. The region multiplies the 50000 x 128 matrix the second layer
  left by the 128 x 16 classifier weights and adds the classifier bias, a 1 x 16 row, in ten bands of 5000 rows: at grid
  point t the body loads rows [5000 t, 5000 t + 5000) of the matrix, all of the weights and the whole row, multiplies into
  a zero accumulator, adds the row to every row of the band's product and writes the 5000 x 16 band back. A row of the
  product depends on that row of the left factor only and the bias acts within a row, so each band is that band of the
  whole product plus the row; the ten bands tile the rows, and the output array ends holding the whole product plus the
  row, whatever the three arrays hold when the region is entered. Nothing here needs finiteness.
-/
import proofs.«411217_j90606630076993_1_alg».proof.Proof.Gen.KernelIdeal.Frame
import proofs.«411217_j90606630076993_1_alg».proof.Proof.LibBands
import Idealize.ShloMosaic.Lib.Pipeline.Value
import Idealize.ShloMosaic.Lib.ValueIdx

set_option maxRecDepth 16384

noncomputable section

namespace Cert.KernelIdeal.RegionValue

open Idealize.ShloMosaic Idealize.ShloMosaic.TcCoe Idealize.SL.Sem Idealize.ShloMosaic.ValueIdx
open Idealize.ShloMosaic.Pipeline (Dat Cfg Window)
open Cert.KernelIdeal Cert.KernelIdeal.Gen DenseRows

/-! ## Region 4 -/

/-- The body's stored value: the product of the loaded band and the weights, plus the bias row on every row. -/
theorem payload4 (x0 : Vec Ideal S5000x128 .f32) (x1 : Vec Ideal S128x16 .f32) (x2 : Vec Ideal S1x16 .f32) :
    k4_pay1 (F := Ideal) x0 x1 x2 = addRow (mm x0 x1) x2 := by
  unfold k4_pay1
  dsimp only
  rw [shapeCast_self, shapeCast_self]
  refine Eq.trans (congrArg (fun z : Mat 5000 16 => addf z (broadcastTo (⟨2, ![5000, 16]⟩ : Shape) x2 broadcasts_S1x16_S5000x16))
    (matmul_plain_eq_mm (m := 5000) (k := 128) (n := 16) none x0 x1)) ?_
  exact bias_vector_form (mm (m := 5000) (k := 128) (n := 16) x0 x1) x2 broadcasts_S1x16_S5000x16

/-- What the body leaves in the output window's buffer. -/
theorem out4_eq (x0 : Vec Ideal S5000x128 .f32) (x1 : Vec Ideal S128x16 .f32) (x2 : Vec Ideal S1x16 .f32) :
    out4_3 (F := Ideal) x0 x1 x2 = addRow (mm x0 x1) x2 := by
  unfold out4_3
  rw [View.canon_unit_zero zero_offsets2]
  simp only [View.ld_unit_zero (S := S5000x128) zero_offsets2, View.ld_unit_zero (S := S128x16) zero_offsets2,
    View.ld_unit_zero (S := S1x16) zero_offsets2]
  exact payload4 x0 x1 x2

/-- The index maps over the grid: the matrix's and the output's block follow the grid point down the rows, the weights'
    and the bias row's blocks stay where they are. -/
theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- WHAT POINT t WRITES BACK is band t of the product plus the bias row, of the three arrays as the region finds them. -/
theorem flushed4 (c : Dev nD) (t : Fin cfg4.N) :
    (dat4 V c).flushed 3 t = ((cfg4.win 3).blk t).view.read (Elt Ideal)
      (addRow (mm (m := 50000) (k := 128) (n := 16) (V c main_v62) (V c main_arg7)) (V c main_v63)) := by
  show (cfg4.win 3).cut (grid4.coords t) ((dat4 V c).after 3 t) = _
  rw [after4_3, out4_eq]
  obtain ⟨e0, e1, e2, e3, e4, e5, e6, e7⟩ := index_facts4 t
  have ht : t.val < 10 := Nat.lt_of_lt_of_eq t.isLt N_4
  funext j
  obtain ⟨p, q, rfl⟩ : ∃ (p : Fin 5000) (q : Fin 16), j = ix2 p q := ⟨j 0, j 1, eq_ix2 j⟩
  have hp : p.val < 5000 := p.isLt
  have hq : q.val < 16 := q.isLt
  show addRow (mm (m := 5000) (k := 128) (n := 16) (iblk4 V c 0 t) (iblk4 V c 1 t)) (iblk4 V c 2 t) (ix2 p q)
    = addRow (mm (m := 50000) (k := 128) (n := 16) (V c main_v62) (V c main_arg7)) (V c main_v63) (((cfg4.win 3).blk t).view.emb (ix2 p q))
  have hemb : ((cfg4.win 3).blk t).view.emb (ix2 p q) = ix2 (⟨t.val * 5000 + p.val, by omega⟩ : Fin 50000) q := by
    funext a; apply Fin.ext
    match a with
    | ⟨0, _⟩ => show win4_3.index t (0 : Fin 2) * 5000 + 1 * p.val = t.val * 5000 + p.val; omega
    | ⟨1, _⟩ => show win4_3.index t (1 : Fin 2) * 16 + 1 * q.val = q.val; omega
  rw [hemb]
  refine mmBias_band (V c main_v62) (V c main_arg7) (V c main_v63) (iblk4 V c 0 t) (iblk4 V c 1 t) (iblk4 V c 2 t) p q _ (fun k => ?_) ?_ ?_
  · have hk : k.val < 128 := k.isLt
    show V c main_v62 (((cfg4.win 0).blk t).view.emb (ix2 p k)) = V c main_v62 (ix2 (⟨t.val * 5000 + p.val, by omega⟩ : Fin 50000) k)
    refine congrArg (V c main_v62) ?_
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  · funext y
    show V c main_arg7 (((cfg4.win 1).blk t).view.emb y) = V c main_arg7 y
    refine congrArg (V c main_arg7) ?_
    funext a; apply Fin.ext
    match a with
    | ⟨0, _⟩ => show win4_1.index t (0 : Fin 2) * 128 + 1 * (y 0).val = (y 0).val; omega
    | ⟨1, _⟩ => show win4_1.index t (1 : Fin 2) * 16 + 1 * (y 1).val = (y 1).val; omega
  · funext y
    show V c main_v63 (((cfg4.win 2).blk t).view.emb y) = V c main_v63 y
    refine congrArg (V c main_v63) ?_
    funext a; apply Fin.ext
    match a with
    | ⟨0, _⟩ => show win4_2.index t (0 : Fin 2) * 1 + 1 * (y 0).val = (y 0).val; omega
    | ⟨1, _⟩ => show win4_2.index t (1 : Fin 2) * 16 + 1 * (y 1).val = (y 1).val; omega

/-- An index of the output array is in point t's block iff its row is in band t. -/
theorem mem_block4 (t : Fin cfg4.N) (i : S50000x16.Idx) :
    i ∈ ((cfg4.win 3).blk t).view.set ↔ ∀ a : Fin 2, win4_3.index t a * S5000x16.size a ≤ (i a).val ∧ (i a).val < win4_3.index t a * S5000x16.size a + S5000x16.size a := by
  show i ∈ ((View.whole main_v64).slice (win4_3.rect t)).set ↔ _
  rw [View.set_slice_whole, Rect.mem_set_unit]
  exact Iff.rfl

/-- The ten bands tile the rows: every index of the output array is in the block of the point its row's band names. -/
theorem cover4 (i : S50000x16.Idx) : ∃ t : Fin cfg4.N, (cfg4.win 3).flush t = true ∧ i ∈ ((cfg4.win 3).blk t).view.set := by
  have hi0 : (i 0).val < 50000 := (i 0).isLt
  have hi1 : (i 1).val < 16 := (i 1).isLt
  refine ⟨⟨(i 0).val / 5000, by rw [show cfg4.N = 10 from N_4]; omega⟩, flush4_3 _, ?_⟩
  rw [mem_block4]
  obtain ⟨e0, e1, e2, e3, e4, e5, e6, e7⟩ := index_facts4 ⟨(i 0).val / 5000, by rw [show cfg4.N = 10 from N_4]; omega⟩
  intro a
  match a with
  | ⟨0, _⟩ =>
    show win4_3.index _ (0 : Fin 2) * 5000 ≤ (i 0).val ∧ (i 0).val < win4_3.index _ (0 : Fin 2) * 5000 + 5000
    rw [e6]; show (i 0).val / 5000 * 5000 ≤ (i 0).val ∧ (i 0).val < (i 0).val / 5000 * 5000 + 5000; omega
  | ⟨1, _⟩ =>
    show win4_3.index _ (1 : Fin 2) * 16 ≤ (i 1).val ∧ (i 1).val < win4_3.index _ (1 : Fin 2) * 16 + 16
    rw [e7]; omega

/-- THE OUTPUT ARRAY after region 4: the product plus the bias row, of the three arrays as the region finds them. -/
theorem final4 (c : Dev nD) :
    (dat4 V c).arrAt 3 cfg4.N = addRow (mm (m := 50000) (k := 128) (n := 16) (V c main_v62) (V c main_arg7)) (V c main_v63) :=
  (dat4 V c).arrAt_eq_of_cover 3 _ (fun t _ => flushed4 V c t) cover4

end Cert.KernelIdeal.RegionValue

end
-- ==== Proof.Chain.lean ====
/-
  The kernel's result is the reference's, stage by stage.

  The kernel's program and the reference compute the same two graph-convolution layers and classifier: a product with
  the layer's weights, a gather of the product's rows along the edge sources scaled by the edge weights and summed into
  the edge destinations, a bias row, the positive part; then a last product and bias. The reference spells the products,
  the biases and the positive parts as host operations; the kernel's program runs them as launches over bands of rows,
  and the gathers and scatters between them as the same host operations as the reference. Going through the program's
  segment boundaries in order, each buffer the next segment reads is shown to hold the reference's stage of the launch
  arguments: the launches by what their output arrays end holding (a product, a bias row and positive part, a product
  and bias row of the arrays they find), the host stretches by reading their operations back over the boundary's
  contents. At the extended reals a product into a zero accumulator is the host's contraction and the change of float
  format before it is the identity, so every stage is an equality of functions, with no appeal to finiteness; the
  index range of the precondition enters once, where the guarded embedding lookup is the plain gather.
-/
import proofs.«411217_j90606630076993_1_alg».proof.Proof.HostA
import proofs.«411217_j90606630076993_1_alg».proof.Proof.Region0
import proofs.«411217_j90606630076993_1_alg».proof.Proof.Region1
import proofs.«411217_j90606630076993_1_alg».proof.Proof.Region2
import proofs.«411217_j90606630076993_1_alg».proof.Proof.Region3
import proofs.«411217_j90606630076993_1_alg».proof.Proof.Region4

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen DenseRows Cert.ReferenceIdeal.ReadP

variable (m : (ℓ : Loc nD τ sig) → Buf (Elt Ideal) ℓ) (ρ : Dev nD → PrngReg) (c : Dev nD)

/-! ## Buffers the middle of the program leaves alone -/

/-- A buffer that is no array of the first launch and that the stretch after it does not write is, at the second
    launch's entry, what it was at the first's. -/
theorem carry6 (b : Ref sig .tc) (h0 : ∀ w, Pipeline.arrRef spec0 w ≠ b)
    (hh : StableHlo.after hostOps1 (W5 m ρ c) (Proc.devRef .tc b) = W5 m ρ c (Proc.devRef .tc b)) :
    W6 m ρ c (Proc.devRef .tc b) = W4 m ρ c (Proc.devRef .tc b) :=
  hh.trans (W5_of_ne m ρ c b h0)

/-- The same up to the third launch's exit, for a buffer that is no array of the second and third launches either. -/
theorem carry8 (b : Ref sig .tc) (h0 : ∀ w, Pipeline.arrRef spec0 w ≠ b) (h1 : ∀ w, Pipeline.arrRef spec1 w ≠ b)
    (h2 : ∀ w, Pipeline.arrRef spec2 w ≠ b)
    (hh : StableHlo.after hostOps1 (W5 m ρ c) (Proc.devRef .tc b) = W5 m ρ c (Proc.devRef .tc b)) :
    W8 m ρ c (Proc.devRef .tc b) = W4 m ρ c (Proc.devRef .tc b) :=
  (W8_of_ne m ρ c b h2).trans ((W7_of_ne m ρ c b h1).trans (carry6 m ρ c b h0 hh))

/-! ## The first layer -/

/-- The looked-up rows: under the index range the guard passes everywhere and the lookup is the reference's gather. -/
theorem rows_eq (hpre : Cert.Pre_KernelIdeal m) : W4 m ρ c (Proc.devRef .tc main_v0)
    = val_main_v6 (F := Ideal) (m ((c : Thread nD τ).loc main_arg0)) (m ((c : Thread nD τ).loc main_arg2)) := by
  rw [take_raw, Take.select_ones _ (Take.mask_ones _ fun k => Take.range_of_pre m hpre c k)]
  rfl

/-- The first product. -/
theorem prod1_eq (hpre : Cert.Pre_KernelIdeal m) : W5 m ρ c (Proc.devRef .tc main_v31)
    = val_main_v37 (F := Ideal) (m ((c : Thread nD τ).loc main_arg0)) (m ((c : Thread nD τ).loc main_arg2))
        (m ((c : Thread nD τ).loc main_arg3)) := by
  refine (W5_arr m ρ c 2).trans ((RegionValue.final0 (V4 m ρ) c).trans ?_)
  show mm (m := 50000) (k := 128) (n := 128) (W4 m ρ c (Proc.devRef .tc main_v0)) (W4 m ρ c (Proc.devRef .tc main_arg3)) = _
  rw [rows_eq m ρ c hpre, arg3_at4]
  exact (dotGeneral_plain_eq_mm (m := 50000) (k := 128) (n := 128) none _ _).symm

set_option maxHeartbeats 4000000 in
/-- The first aggregation: the product's rows gathered along the sources, scaled by the edge weights, summed into the
    destinations. -/
theorem agg1_eq (hpre : Cert.Pre_KernelIdeal m) : W6 m ρ c (Proc.devRef .tc main_v44)
    = val_main_v50 (F := Ideal) (m ((c : Thread nD τ).loc main_arg0)) (m ((c : Thread nD τ).loc main_arg1))
        (m ((c : Thread nD τ).loc main_arg2)) (m ((c : Thread nD τ).loc main_arg3)) := by
  show StableHlo.after hostOps1 (W5 m ρ c) (Proc.devRef .tc main_v44) = _
  after_results
  rw [W5_of_ne m ρ c main_v7 (by decide), W5_of_ne m ρ c main_v4 (by decide), W5_of_ne m ρ c main_v30 (by decide),
    dst_eq, src_eq, norm_eq, prod1_eq m ρ c hpre]
  rfl

/-- The first bias, as the one-row matrix the launch reads. -/
theorem bias1_eq : W6 m ρ c (Proc.devRef .tc main_v45) = asRow (m ((c : Thread nD τ).loc main_arg4)) := by
  show StableHlo.after hostOps1 (W5 m ρ c) (Proc.devRef .tc main_v45) = _
  after_results
  rw [W5_of_ne m ρ c main_arg4 (by decide), arg4_at4]
  exact shapeCast_asRow (m ((c : Thread nD τ).loc main_arg4)) shapeCasts_S128_S1x128

/-- The first layer's output: the bias added and the positive part taken. -/
theorem act1_eq (hpre : Cert.Pre_KernelIdeal m) : W7 m ρ c (Proc.devRef .tc main_v46)
    = val_main_v54 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W7_arr m ρ c 2).trans ((RegionValue.final1 (V6 m ρ) c).trans ?_)
  show relu (addRow (m := 50000) (n := 128) (W6 m ρ c (Proc.devRef .tc main_v44)) (W6 m ρ c (Proc.devRef .tc main_v45))) = _
  rw [agg1_eq m ρ c hpre, bias1_eq]
  refine Eq.symm ?_
  unfold val_main_v54 val_main_v53 val_main_v52 val_main_v51 val_main_call1_v0 val_main_call1_cst
  exact (relu_host_form (m := 50000) (n := 128) _ _).trans (congrArg relu ((bias_host_form (m := 50000) (n := 128) _ _ _).trans
    (congrArg (addRow _) (broadcastInDim_asRow _ _))))

/-! ## The second layer -/

/-- The second layer's weights at the third launch's entry. -/
theorem arg5_at7 : W7 m ρ c (Proc.devRef .tc main_arg5) = m ((c : Thread nD τ).loc main_arg5) :=
  (W7_of_ne m ρ c main_arg5 (by decide)).trans ((carry6 m ρ c main_arg5 (by decide) (by not_written hostOps1)).trans (arg5_at4 m ρ c))

/-- The second product. -/
theorem prod2_eq (hpre : Cert.Pre_KernelIdeal m) : W8 m ρ c (Proc.devRef .tc main_v47)
    = val_main_v55 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W8_arr m ρ c 2).trans ((RegionValue.final2 (V7 m ρ) c).trans ?_)
  show mm (m := 50000) (k := 128) (n := 128) (W7 m ρ c (Proc.devRef .tc main_v46)) (W7 m ρ c (Proc.devRef .tc main_arg5)) = _
  rw [act1_eq m ρ c hpre, arg5_at7]
  exact (dotGeneral_plain_eq_mm (m := 50000) (k := 128) (n := 128) none _ _).symm

set_option maxHeartbeats 4000000 in
/-- The second aggregation. -/
theorem agg2_eq (hpre : Cert.Pre_KernelIdeal m) : W9 m ρ c (Proc.devRef .tc main_v60)
    = val_main_v68 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  show StableHlo.after hostOps3 (W8 m ρ c) (Proc.devRef .tc main_v60) = _
  after_results
  rw [carry8 m ρ c main_v7 (by decide) (by decide) (by decide) (by not_written hostOps1),
    carry8 m ρ c main_v4 (by decide) (by decide) (by decide) (by not_written hostOps1),
    carry8 m ρ c main_v30 (by decide) (by decide) (by decide) (by not_written hostOps1),
    dst_eq, src_eq, norm_eq, prod2_eq m ρ c hpre]
  rfl

/-- The second bias, as the one-row matrix the launch reads. -/
theorem bias2_eq : W9 m ρ c (Proc.devRef .tc main_v61) = asRow (m ((c : Thread nD τ).loc main_arg6)) := by
  show StableHlo.after hostOps3 (W8 m ρ c) (Proc.devRef .tc main_v61) = _
  after_results
  rw [carry8 m ρ c main_arg6 (by decide) (by decide) (by decide) (by not_written hostOps1), arg6_at4]
  exact shapeCast_asRow (m ((c : Thread nD τ).loc main_arg6)) shapeCasts_S128_S1x128

/-- The second layer's output. -/
theorem act2_eq (hpre : Cert.Pre_KernelIdeal m) : W10 m ρ c (Proc.devRef .tc main_v62)
    = val_main_v72 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) := by
  refine (W10_arr m ρ c 2).trans ((RegionValue.final3 (V9 m ρ) c).trans ?_)
  show relu (addRow (m := 50000) (n := 128) (W9 m ρ c (Proc.devRef .tc main_v60)) (W9 m ρ c (Proc.devRef .tc main_v61))) = _
  rw [agg2_eq m ρ c hpre, bias2_eq]
  refine Eq.symm ?_
  unfold val_main_v72 val_main_v71 val_main_v70 val_main_v69 val_main_call2_v0 val_main_call2_cst
  exact (relu_host_form (m := 50000) (n := 128) _ _).trans (congrArg relu ((bias_host_form (m := 50000) (n := 128) _ _ _).trans
    (congrArg (addRow _) (broadcastInDim_asRow _ _))))

/-! ## The classifier -/

/-- The classifier's weights at the last launch's entry. -/
theorem arg7_at11 : W11 m ρ c (Proc.devRef .tc main_arg7) = m ((c : Thread nD τ).loc main_arg7) :=
  calc W11 m ρ c (Proc.devRef .tc main_arg7)
    _ = W10 m ρ c (Proc.devRef .tc main_arg7) := by not_written hostOps4
    _ = W9 m ρ c (Proc.devRef .tc main_arg7) := W10_of_ne m ρ c main_arg7 (by decide)
    _ = W8 m ρ c (Proc.devRef .tc main_arg7) := by not_written hostOps3
    _ = W4 m ρ c (Proc.devRef .tc main_arg7) := carry8 m ρ c main_arg7 (by decide) (by decide) (by decide) (by not_written hostOps1)
    _ = m ((c : Thread nD τ).loc main_arg7) := arg7_at4 m ρ c

/-- The classifier's bias, as the one-row matrix the launch reads. -/
theorem bias3_eq : W11 m ρ c (Proc.devRef .tc main_v63) = asRow (m ((c : Thread nD τ).loc main_arg8)) := by
  show StableHlo.after hostOps4 (W10 m ρ c) (Proc.devRef .tc main_v63) = _
  after_results
  rw [W10_of_ne m ρ c main_arg8 (by decide),
    show W9 m ρ c (Proc.devRef .tc main_arg8) = W8 m ρ c (Proc.devRef .tc main_arg8) by not_written hostOps3,
    carry8 m ρ c main_arg8 (by decide) (by decide) (by decide) (by not_written hostOps1), arg8_at4]
  exact shapeCast_asRow (m ((c : Thread nD τ).loc main_arg8)) shapeCasts_S16_S1x16

/-- THE RESULT: the kernel's result array, at the last boundary, is the reference's last stage of the launch arguments. -/
theorem result_eq (hpre : Cert.Pre_KernelIdeal m) : W12 m ρ c (Proc.devRef .tc main_v64)
    = val_main_v76 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (W12_arr m ρ c 3).trans ((RegionValue.final4 (V11 m ρ) c).trans ?_)
  show addRow (mm (m := 50000) (k := 128) (n := 16) (W11 m ρ c (Proc.devRef .tc main_v62)) (W11 m ρ c (Proc.devRef .tc main_arg7)))
      (W11 m ρ c (Proc.devRef .tc main_v63)) = _
  rw [show W11 m ρ c (Proc.devRef .tc main_v62) = W10 m ρ c (Proc.devRef .tc main_v62) by not_written hostOps4,
    act2_eq m ρ c hpre, arg7_at11, bias3_eq]
  refine Eq.symm ?_
  unfold val_main_v76 val_main_v75 val_main_v74 val_main_v73
  exact (bias_host_form (m := 50000) (n := 16) _ _ _).trans (congr (congrArg addRow (dotGeneral_plain_eq_mm (m := 50000) (k := 128) (n := 16) none _ _))
    (broadcastInDim_asRow _ _))

end Cert.KernelIdeal.Chain

end
-- ==== Proof.lean ====
/-
  Two graph-convolution layers and a classifier over a fixed graph: the kernel's program against its jnp reference,
  at the extended reals.

  Both programs look the node features up in an embedding table, append a self loop to every node, weigh every edge by
  the inverse square roots of the degrees of its two ends, and then twice multiply the features by a layer's weights,
  gather the products along the edge sources, scale them by the edge weights, sum them into the edge destinations, add
  a bias and take the positive part; a last product and bias give the class scores. The kernel's program runs the three
  products and the two bias-and-positive-part steps as launches over ten bands of 5000 rows, with the operands of the
  products cast to a narrower float format first; everything else it does with the reference's own host operations.
  At the extended reals the cast is the identity, a product into a zero accumulator is the contraction, and a band of
  rows of a row-local function is that band of the function of the whole matrix, so the two programs compute one
  function of their arguments (Chain.lean, over the launches' values in Region0.lean to Region4.lean and the host
  stretches in HostA.lean). The one difference is the lookup: the kernel's puts a not-a-number row where an index is out
  of range, the reference's gather clamps; the precondition keeps every index in [-50000, 50000), where both read the
  same row (Take.lean). No step needs the finiteness of the float inputs.

  The three frame claims are the generated frames (the reference's is its run with the result dropped); the kernel's
  idealization rewrote nothing, so there is nothing to preserve; the equivalence puts the two runs side by side.
-/
import proofs.«411217_j90606630076993_1_alg».proof.Defs
import proofs.«411217_j90606630076993_1_alg».proof.Proof.Gen.Kernel
import proofs.«411217_j90606630076993_1_alg».proof.Proof.Gen.Kernel.Skeleton
import proofs.«411217_j90606630076993_1_alg».proof.Proof.Gen.Kernel.Launch
import proofs.«411217_j90606630076993_1_alg».proof.Proof.Gen.Kernel.Points
import proofs.«411217_j90606630076993_1_alg».proof.Proof.Gen.Kernel.Frame
import proofs.«411217_j90606630076993_1_alg».proof.Proof.Gen.KernelIdeal
import proofs.«411217_j90606630076993_1_alg».proof.Proof.Gen.KernelIdeal.Skeleton
import proofs.«411217_j90606630076993_1_alg».proof.Proof.Gen.KernelIdeal.Launch
import proofs.«411217_j90606630076993_1_alg».proof.Proof.Gen.KernelIdeal.Points
import proofs.«411217_j90606630076993_1_alg».proof.Proof.Gen.KernelIdeal.Frame
import proofs.«411217_j90606630076993_1_alg».proof.Proof.Gen.ReferenceIdeal
import proofs.«411217_j90606630076993_1_alg».proof.Proof.Gen.Pre_finite_inputs
import proofs.«411217_j90606630076993_1_alg».proof.Proof.KRun
import proofs.«411217_j90606630076993_1_alg».proof.Proof.Chain
import proofs.«411217_j90606630076993_1_alg».proof.Proof.RefRead
import Idealize.ShloMosaic.Adequacy
import Idealize.ShloMosaic.Init

set_option maxRecDepth 16384

noncomputable section

namespace Cert.Proof

open Idealize.ShloMosaic Idealize.SL.Sem

/-- The kernel's program as printed runs and leaves its arguments alone. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference runs and leaves its arguments alone: its run, with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories that agree on the arguments the two programs end with one result array: the kernel's at the last
    boundary's contents, which is the reference's last stage of the kernel's arguments, which are the reference's. -/
theorem algebraic : Cert.algebraic_KernelIdeal_ReferenceIdeal := by
  intro m ρ m' ρ' hpre hagree
  refine ⟨fun c => Cert.KernelIdeal.Gen.W12 m ρ c (Proc.devRef .tc Cert.KernelIdeal.main_v64), Cert.KernelIdeal.GenRun.run_out m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8⟩ := hagree c
  rw [Cert.ReferenceIdeal.ReadP.val_main_v76_eq, a0, a1, a2, a3, a4, a5, a6, a7, a8]
  exact (Cert.KernelIdeal.Chain.result_eq m ρ c hpre).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
